-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x512x768 : Shape := ⟨3, ![8, 512, 768]⟩
abbrev S8x6144x2 : Shape := ⟨3, ![8, 6144, 2]⟩
abbrev S768x768 : Shape := ⟨2, ![768, 768]⟩
abbrev S768 : Shape := ⟨1, ![768]⟩
abbrev S1536x768 : Shape := ⟨2, ![1536, 768]⟩
abbrev S_ : Shape := ⟨0, ![]⟩

class Facts : Prop where
  bcast_S_S8x512x768 : S_.BroadcastsInDim S8x512x768 (![] : Fin 0 → Fin S8x512x768.rank)
  reducesTo_S8x512x768_S_d0_1_2 : S8x512x768.ReducesTo [0, 1, 2] S_
  h_S_ : 0 < S_.numel
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_
  bcast_S_S1536x768 : S_.BroadcastsInDim S1536x768 (![] : Fin 0 → Fin S1536x768.rank)
  reducesTo_S1536x768_S_d0_1 : S1536x768.ReducesTo [0, 1] S_
  bcast_S_S8x6144x2 : S_.BroadcastsInDim S8x6144x2 (![] : Fin 0 → Fin S8x6144x2.rank)
  reducesTo_S8x6144x2_S_d0_1_2 : S8x6144x2.ReducesTo [0, 1, 2] S_

variable [Facts]

def fn_part2 {F : FTy → Type} [FloatOps F] (main_arg1 : IVec S8x6144x2 32) (main_v33 : IVec S_ 1) : IVec S_ 1 :=
  let main_c_12 : IVec S_ 32 := constantI S_ 32 0#32
  let main_v34 : IVec S8x6144x2 32 := broadcastInDim S8x6144x2 ![] bcast_S_S8x6144x2 main_c_12
  let main_v35 : IVec S8x6144x2 1 := cmpi .sge main_arg1 main_v34
  let main_c_13 : IVec S_ 32 := constantI S_ 32 512#32
  let main_v36 : IVec S8x6144x2 32 := broadcastInDim S8x6144x2 ![] bcast_S_S8x6144x2 main_c_13
  let main_v37 : IVec S8x6144x2 1 := cmpi .slt main_arg1 main_v36
  let main_v38 : IVec S8x6144x2 1 := andi main_v35 main_v37
  let main_c_14 : IVec S_ 1 := constantI S_ 1 1#1
  let main_v39 : IVec S_ 1 := (fun x v => Host.reduce IntOp.andi x v reducesTo_S8x6144x2_S_d0_1_2 h_S_) main_v38 main_c_14
  let main_v40 : IVec S_ 1 := andi main_v33 main_v39
  main_v40

def fn_part1 {F : FTy → Type} [FloatOps F] (main_arg1 : IVec S8x6144x2 32) (main_arg5 : FVec F S768 .f32) (main_arg6 : FVec F S1536x768 .f32) (main_arg7 : FVec F S768 .f32) (main_v13 : IVec S_ 1) (main_v16 : IVec S768x768 1) : IVec S_ 1 :=
  let main_c_5 : IVec S_ 1 := constantI S_ 1 1#1
  let main_v17 : IVec S_ 1 := (fun x v => Host.reduce IntOp.andi x v reducesTo_S768x768_S_d0_1 h_S_) main_v16 main_c_5
  let main_v18 : IVec S_ 1 := andi main_v13 main_v17
  let main_v19 : FVec F S768 .f32 := Host.absf main_arg5
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  let main_v24 : FVec F S1536x768 .f32 := Host.absf main_arg6
  let main_cst_8 : FVec F S_ .f32 := constant S_ .f32 0x7F800000#32
  let main_v25 : FVec F S1536x768 .f32 := broadcastInDim S1536x768 ![] bcast_S_S1536x768 main_cst_8
  let main_v26 : IVec S1536x768 1 := cmpf .olt main_v24 main_v25
  let main_c_9 : IVec S_ 1 := constantI S_ 1 1#1
  let main_v27 : IVec S_ 1 := (fun x v => Host.reduce IntOp.andi x v reducesTo_S1536x768_S_d0_1 h_S_) main_v26 main_c_9
  let main_v28 : IVec S_ 1 := andi main_v23 main_v27
  let main_v29 : FVec F S768 .f32 := Host.absf main_arg7
  let main_cst_10 : FVec F S_ .f32 := constant S_ .f32 0x7F800000#32
  let main_v30 : FVec F S768 .f32 := broadcastInDim S768 ![] bcast_S_S768 main_cst_10
  let main_v31 : IVec S768 1 := cmpf .olt main_v29 main_v30
  let main_c_11 : IVec S_ 1 := constantI S_ 1 1#1
  let main_v32 : IVec S_ 1 := (fun x v => Host.reduce IntOp.andi x v reducesTo_S768_S_d0 h_S_) main_v31 main_c_11
  let main_v33 : IVec S_ 1 := andi main_v28 main_v32
  fn_part2 (F := F) main_arg1 main_v33

def fn {F : FTy → Type} [FloatOps F] (main_arg0 : FVec F S8x512x768 .f32) (main_arg1 : IVec S8x6144x2 32) (main_arg2 : FVec F S768x768 .f32) (main_arg3 : FVec F S768 .f32) (main_arg4 : FVec F S768x768 .f32) (main_arg5 : FVec F S768 .f32) (main_arg6 : FVec F S1536x768 .f32) (main_arg7 : FVec F S768 .f32) : IVec S_ 1 :=
  let main_v0 : FVec F S8x512x768 .f32 := Host.absf main_arg0
  let main_cst : FVec F S_ .f32 := constant S_ .f32 0x7F800000#32
  let main_v1 : FVec F S8x512x768 .f32 := broadcastInDim S8x512x768 ![] bcast_S_S8x512x768 main_cst
  let main_v2 : IVec S8x512x768 1 := cmpf .olt main_v0 main_v1
  let main_c : IVec S_ 1 := constantI S_ 1 1#1
  let main_v3 : IVec S_ 1 := (fun x v => Host.reduce IntOp.andi x v reducesTo_S8x512x768_S_d0_1_2 h_S_) main_v2 main_c
  let main_v4 : FVec F S768x768 .f32 := Host.absf main_arg2
  let main_cst_0 : FVec F S_ .f32 := constant S_ .f32 0x7F800000#32
  let main_v5 : FVec F S768x768 .f32 := broadcastInDim S768x768 ![] bcast_S_S768x768 main_cst_0
  let main_v6 : IVec S768x768 1 := cmpf .olt main_v4 main_v5
  let main_c_1 : IVec S_ 1 := constantI S_ 1 1#1
  let main_v7 : IVec S_ 1 := (fun x v => Host.reduce IntOp.andi x v reducesTo_S768x768_S_d0_1 h_S_) main_v6 main_c_1
  let main_v8 : IVec S_ 1 := andi main_v3 main_v7
  let main_v9 : FVec F S768 .f32 := Host.absf main_arg3
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  let main_v14 : FVec F S768x768 .f32 := Host.absf main_arg4
  let main_cst_4 : FVec F S_ .f32 := constant S_ .f32 0x7F800000#32
  let main_v15 : FVec F S768x768 .f32 := broadcastInDim S768x768 ![] bcast_S_S768x768 main_cst_4
  let main_v16 : IVec S768x768 1 := cmpf .olt main_v14 main_v15
  fn_part1 (F := F) main_arg1 main_arg5 main_arg6 main_arg7 main_v13 main_v16
-- ==== Kernel.lean ====
abbrev S8x512x768 : Shape := ⟨3, ![8, 512, 768]⟩
abbrev S8x6144x2 : Shape := ⟨3, ![8, 6144, 2]⟩
abbrev S768x768 : Shape := ⟨2, ![768, 768]⟩
abbrev S768 : Shape := ⟨1, ![768]⟩
abbrev S1536x768 : Shape := ⟨2, ![1536, 768]⟩
abbrev S1x512x768 : Shape := ⟨3, ![1, 512, 768]⟩
abbrev S512x768 : Shape := ⟨2, ![512, 768]⟩
abbrev S1x768 : Shape := ⟨2, ![1, 768]⟩
abbrev S8x6144x1 : Shape := ⟨3, ![8, 6144, 1]⟩
abbrev S8x6144 : Shape := ⟨2, ![8, 6144]⟩
abbrev S_ : Shape := ⟨0, ![]⟩
abbrev S8x6144x768 : Shape := ⟨3, ![8, 6144, 768]⟩
abbrev S1x1024x1 : Shape := ⟨3, ![1, 1024, 1]⟩
abbrev S1x1024x768 : Shape := ⟨3, ![1, 1024, 768]⟩
abbrev S1024 : Shape := ⟨1, ![1024]⟩
abbrev S1024x512 : Shape := ⟨2, ![1024, 512]⟩
abbrev S1024x1 : Shape := ⟨2, ![1024, 1]⟩
abbrev S1024x768 : Shape := ⟨2, ![1024, 768]⟩
abbrev S8x512x12x768 : Shape := ⟨4, ![8, 512, 12, 768]⟩

abbrev nBuf : Space → Nat
  | .hbm => 36
  | .vmem => 23
  | .smem => 0
  | _ => 0

abbrev bufTy : (tb : Table) → Fin (tcTables nBuf tb) → BufTy
  | .hbm, ⟨0, _⟩ => ⟨S8x512x768, .f32⟩
  | .hbm, ⟨1, _⟩ => ⟨S8x6144x2, .i32⟩
  | .hbm, ⟨2, _⟩ => ⟨S768x768, .f32⟩
  | .hbm, ⟨3, _⟩ => ⟨S768, .f32⟩
  | .hbm, ⟨4, _⟩ => ⟨S768x768, .f32⟩
  | .hbm, ⟨5, _⟩ => ⟨S768, .f32⟩
  | .hbm, ⟨6, _⟩ => ⟨S1536x768, .f32⟩
  | .hbm, ⟨7, _⟩ => ⟨S768, .f32⟩
  | .hbm, ⟨8, _⟩ => ⟨S768x768, .f32⟩
  | .hbm, ⟨9, _⟩ => ⟨S768x768, .f32⟩
  | .hbm, ⟨10, _⟩ => ⟨S8x512x768, .f32⟩
  | .hbm, ⟨11, _⟩ => ⟨S8x512x768, .f32⟩
  | .hbm, ⟨12, _⟩ => ⟨S8x6144x1, .i32⟩
  | .hbm, ⟨13, _⟩ => ⟨S8x6144, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S8x6144, .i32⟩
  | .hbm, ⟨18, _⟩ => ⟨S8x6144, .i32⟩
  | .hbm, ⟨19, _⟩ => ⟨S_, .i32⟩
  | .hbm, ⟨20, _⟩ => ⟨S8x6144, .i32⟩
  | .hbm, ⟨21, _⟩ => ⟨S8x6144, .i32⟩
  | .hbm, ⟨22, _⟩ => ⟨S8x6144x1, .i32⟩
  | .hbm, ⟨23, _⟩ => ⟨S8x6144x1, .i32⟩
  | .hbm, ⟨24, _⟩ => ⟨S8x6144, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S8x6144, .i32⟩
  | .hbm, ⟨29, _⟩ => ⟨S8x6144, .i32⟩
  | .hbm, ⟨30, _⟩ => ⟨S_, .i32⟩
  | .hbm, ⟨31, _⟩ => ⟨S8x6144, .i32⟩
  | .hbm, ⟨32, _⟩ => ⟨S8x6144, .i32⟩
  | .hbm, ⟨33, _⟩ => ⟨S8x6144x1, .i32⟩
  | .hbm, ⟨34, _⟩ => ⟨S8x6144x768, .f32⟩
  | .hbm, ⟨35, _⟩ => ⟨S8x512x12x768, .f32⟩
  | .local _ .vmem, ⟨0, _⟩ => ⟨S1x512x768, .f32⟩
  | .local _ .vmem, ⟨1, _⟩ => ⟨S1x512x768, .f32⟩
  | .local _ .vmem, ⟨2, _⟩ => ⟨S768x768, .f32⟩
  | .local _ .vmem, ⟨3, _⟩ => ⟨S768, .f32⟩
  | .local _ .vmem, ⟨4, _⟩ => ⟨S768x768, .f32⟩
  | .local _ .vmem, ⟨5, _⟩ => ⟨S768, .f32⟩
  | .local _ .vmem, ⟨6, _⟩ => ⟨S768x768, .f32⟩
  | .local _ .vmem, ⟨7, _⟩ => ⟨S768x768, .f32⟩
  | .local _ .vmem, ⟨8, _⟩ => ⟨S1x512x768, .f32⟩
  | .local _ .vmem, ⟨9, _⟩ => ⟨S1x512x768, .f32⟩
  | .local _ .vmem, ⟨10, _⟩ => ⟨S1x512x768, .f32⟩
  | .local _ .vmem, ⟨11, _⟩ => ⟨S1x512x768, .f32⟩
  | .local _ .vmem, ⟨12, _⟩ => ⟨S1x1024x1, .i32⟩
  | .local _ .vmem, ⟨13, _⟩ => ⟨S1x1024x1, .i32⟩
  | .local _ .vmem, ⟨14, _⟩ => ⟨S1x1024x1, .i32⟩
  | .local _ .vmem, ⟨15, _⟩ => ⟨S1x1024x1, .i32⟩
  | .local _ .vmem, ⟨16, _⟩ => ⟨S1x512x768, .f32⟩
  | .local _ .vmem, ⟨17, _⟩ => ⟨S1x512x768, .f32⟩
  | .local _ .vmem, ⟨18, _⟩ => ⟨S1x512x768, .f32⟩
  | .local _ .vmem, ⟨19, _⟩ => ⟨S1x512x768, .f32⟩
  | .local _ .vmem, ⟨20, _⟩ => ⟨S768, .f32⟩
  | .local _ .vmem, ⟨21, _⟩ => ⟨S1x1024x768, .f32⟩
  | .local _ .vmem, ⟨22, _⟩ => ⟨S1x1024x768, .f32⟩
  | _, _ => ⟨S8x512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_c_0 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_c_1 : Ref sig .tc := ⟨.hbm, 25, rfl⟩
abbrev main_c_2 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg5_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem5_0 : DmaSem sig := 21
abbrev cc1_sem5_1 : DmaSem sig := 22

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S768x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S768x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x512x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x512x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨2, ![8, 6], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x1024x1 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1024x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x512x768 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512x768 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 1 → Memref sig .tc .vmem S768 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x1024x768 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  slices_S1536x768_S768x768_0_0 : S1536x768.Slices ![0, 0] S768x768
  slices_S1536x768_S768x768_768_0 : S1536x768.Slices ![768, 0] S768x768
  inb_S1x512x768_S1x512x768_0_0_0 : ∀ a, (![0, 0, 0] : Fin 3 → Nat) a + S1x512x768.size a ≤ S1x512x768.size a
  h_S1x512x768 : 0 < S1x512x768.numel
  shapeCasts_S1x512x768_S512x768 : S1x512x768.ShapeCasts S512x768
  bitsLt_bf16_f32 : FTy.bits .bf16 < FTy.bits .f32
  inb_S768x768_S768x768_0_0 : ∀ a, (![0, 0] : Fin 2 → Nat) a + S768x768.size a ≤ S768x768.size a
  h_S768x768 : 0 < S768x768.numel
  inb_S768_S768_0 : ∀ a, (![0] : Fin 1 → Nat) a + S768.size a ≤ S768.size a
  h_S768 : 0 < S768.numel
  shapeCasts_S768_S1x768 : S768.ShapeCasts S1x768
  broadcasts_S1x768_S512x768 : S1x768.Broadcasts S512x768
  shapeCasts_S768x768_S768x768 : S768x768.ShapeCasts S768x768
  shapeCasts_S512x768_S1x512x768 : S512x768.ShapeCasts S1x512x768
  slices_S8x6144x2_S8x6144x1_0_0_0 : S8x6144x2.Slices ![0, 0, 0] S8x6144x1
  shapeCasts_S8x6144x1_S8x6144 : S8x6144x1.ShapeCasts S8x6144
  bcast_S_S8x6144 : S_.BroadcastsInDim S8x6144 (![] : Fin 0 → Fin S8x6144.rank)
  shapeCasts_S8x6144_S8x6144x1 : S8x6144.ShapeCasts S8x6144x1
  slices_S8x6144x2_S8x6144x1_0_0_1 : S8x6144x2.Slices ![0, 0, 1] S8x6144x1
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024 : S1x1024x1.ShapeCasts S1024
  iota_S1024x512_d1_w32 : S1024x512.Iotas .tc 32 [1]
  shapeCasts_S1024_S1024x1 : S1024.ShapeCasts S1024x1
  broadcasts_S1024x1_S1024x512 : S1024x1.Broadcasts S1024x512
  natLt_1_32 : 1 < 32
  broadcasts_S1x768_S1024x768 : S1x768.Broadcasts S1024x768
  inb_S1x1024x768_S1x1024x768_0_0_0 : ∀ a, (![0, 0, 0] : Fin 3 → Nat) a + S1x1024x768.size a ≤ S1x1024x768.size a
  h_S1x1024x768 : 0 < S1x1024x768.numel
  shapeCasts_S1x1024x768_S1024x768 : S1x1024x768.ShapeCasts S1024x768
  shapeCasts_S1024x768_S1x1024x768 : S1024x768.ShapeCasts S1x1024x768
  shapeCasts_S8x6144x768_S8x512x12x768 : S8x6144x768.ShapeCasts S8x512x12x768
  dot_S512x768_S768x768_S512x768_1_0_0_1_n_n_wf : DotDims.WF S512x768 S768x768 S512x768 [1] [0] [0] [1] [] []
  dot_S1024x512_S512x768_S1024x768_1_0_0_1_n_n_wf : DotDims.WF S1024x512 S512x768 S1024x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x768.size a ≤ S8x512x768.size a
  hwx0_0 : ∀ i : grid0.Coords, EltTy.bits .f32 = 32 ∨ (Rect.block (s := S8x512x768) S1x512x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x768.size a ≤ S768x768.size a
  hwx0_1 : ∀ i : grid0.Coords, EltTy.bits .f32 = 32 ∨ (Rect.block (s := S768x768) S768x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768.size a ≤ S768.size a
  hwx0_2 : ∀ i : grid0.Coords, EltTy.bits .f32 = 32 ∨ (Rect.block (s := S768) S768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768x768.size a ≤ S768x768.size a
  hwx0_3 : ∀ i : grid0.Coords, EltTy.bits .f32 = 32 ∨ (Rect.block (s := S768x768) S768x768.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S768.size a ≤ S768.size a
  hwx0_4 : ∀ i : grid0.Coords, EltTy.bits .f32 = 32 ∨ (Rect.block (s := S768) S768.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S768x768.size a ≤ S768x768.size a
  hwx0_5 : ∀ i : grid0.Coords, EltTy.bits .f32 = 32 ∨ (Rect.block (s := S768x768) S768x768.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S768x768.size a ≤ S768x768.size a
  hwx0_6 : ∀ i : grid0.Coords, EltTy.bits .f32 = 32 ∨ (Rect.block (s := S768x768) S768x768.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x512x768.size a ≤ S8x512x768.size a
  hwx0_7 : ∀ i : grid0.Coords, EltTy.bits .f32 = 32 ∨ (Rect.block (s := S8x512x768) S1x512x768.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x512x768.size a ≤ S8x512x768.size a
  hwx0_8 : ∀ i : grid0.Coords, EltTy.bits .f32 = 32 ∨ (Rect.block (s := S8x512x768) S1x512x768.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x1.size a ≤ S8x6144x1.size a
  hwx1_0 : ∀ i : grid1.Coords, EltTy.bits .i32 = 32 ∨ (Rect.block (s := S8x6144x1) S1x1024x1.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x1.size a ≤ S8x6144x1.size a
  hwx1_1 : ∀ i : grid1.Coords, EltTy.bits .i32 = 32 ∨ (Rect.block (s := S8x6144x1) S1x1024x1.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x768.size a ≤ S8x512x768.size a
  hwx1_2 : ∀ i : grid1.Coords, EltTy.bits .f32 = 32 ∨ (Rect.block (s := S8x512x768) S1x512x768.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x768.size a ≤ S8x512x768.size a
  hwx1_3 : ∀ i : grid1.Coords, EltTy.bits .f32 = 32 ∨ (Rect.block (s := S8x512x768) S1x512x768.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S768.size a ≤ S768.size a
  hwx1_4 : ∀ i : grid1.Coords, EltTy.bits .f32 = 32 ∨ (Rect.block (s := S768) S768.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x1024x768.size a ≤ S8x6144x768.size a
  hwx1_5 : ∀ i : grid1.Coords, EltTy.bits .f32 = 32 ∨ (Rect.block (s := S8x6144x768) S1x1024x768.size (cc1_transform_5 i) (hinb1_5 i)).WholeWords (EltTy.packing .f32)

variable [Facts₀]

def dot_S512x768_S768x768_S512x768_1_0_0_1_n_n : DotDims S512x768 S768x768 S512x768 where
  lhsContracting := [1]
  rhsContracting := [0]
  lhsNonContracting := [0]
  rhsNonContracting := [1]
  lhsBatch := []
  rhsBatch := []
  wf := dot_S512x768_S768x768_S512x768_1_0_0_1_n_n_wf
def dot_S1024x512_S512x768_S1024x768_1_0_0_1_n_n : DotDims S1024x512 S512x768 S1024x768 where
  lhsContracting := [1]
  rhsContracting := [0]
  lhsNonContracting := [0]
  rhsNonContracting := [1]
  lhsBatch := []
  rhsBatch := []
  wf := dot_S1024x512_S512x768_S1024x768_1_0_0_1_n_n_wf

abbrev win0_0 : Pipeline.Window sig grid0 :=
  Pipeline.Window.ofSpec (Memref.whole main_arg0) S1x512x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S768x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S768x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S768x768.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S768x768.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2_0) S1x512x768.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v2_1) S1x512x768.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v6) S1x1024x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S1x1024x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2_0) S1x512x768.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2_1) S1x512x768.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S768.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v11) S1x1024x768.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S8x512x768 : Shape := ⟨3, ![8, 512, 768]⟩
abbrev S8x6144x2 : Shape := ⟨3, ![8, 6144, 2]⟩
abbrev S768x768 : Shape := ⟨2, ![768, 768]⟩
abbrev S768 : Shape := ⟨1, ![768]⟩
abbrev S1536x768 : Shape := ⟨2, ![1536, 768]⟩
abbrev S1x1x768 : Shape := ⟨3, ![1, 1, 768]⟩
abbrev S8x6144x1 : Shape := ⟨3, ![8, 6144, 1]⟩
abbrev S8x6144 : Shape := ⟨2, ![8, 6144]⟩
abbrev S_ : Shape := ⟨0, ![]⟩
abbrev S1 : Shape := ⟨1, ![1]⟩
abbrev S1x1x1 : Shape := ⟨3, ![1, 1, 1]⟩
abbrev S8x6144x768 : Shape := ⟨3, ![8, 6144, 768]⟩
abbrev S8x6144x1536 : Shape := ⟨3, ![8, 6144, 1536]⟩
abbrev S8x512x12x768 : Shape := ⟨4, ![8, 512, 12, 768]⟩

abbrev nBuf : Space → Nat
  | .hbm => 75
  | .vmem => 0
  | .smem => 0
  | _ => 0

abbrev bufTy : (tb : Table) → Fin (tcTables nBuf tb) → BufTy
  | .hbm, ⟨0, _⟩ => ⟨S8x512x768, .f32⟩
  | .hbm, ⟨1, _⟩ => ⟨S8x6144x2, .i32⟩
  | .hbm, ⟨2, _⟩ => ⟨S768x768, .f32⟩
  | .hbm, ⟨3, _⟩ => ⟨S768, .f32⟩
  | .hbm, ⟨4, _⟩ => ⟨S768x768, .f32⟩
  | .hbm, ⟨5, _⟩ => ⟨S768, .f32⟩
  | .hbm, ⟨6, _⟩ => ⟨S1536x768, .f32⟩
  | .hbm, ⟨7, _⟩ => ⟨S768, .f32⟩
  | .hbm, ⟨8, _⟩ => ⟨S8x512x768, .f32⟩
  | .hbm, ⟨9, _⟩ => ⟨S1x1x768, .f32⟩
  | .hbm, ⟨10, _⟩ => ⟨S8x512x768, .f32⟩
  | .hbm, ⟨11, _⟩ => ⟨S8x512x768, .f32⟩
  | .hbm, ⟨12, _⟩ => ⟨S8x512x768, .f32⟩
  | .hbm, ⟨13, _⟩ => ⟨S1x1x768, .f32⟩
  | .hbm, ⟨14, _⟩ => ⟨S8x512x768, .f32⟩
  | .hbm, ⟨15, _⟩ => ⟨S8x512x768, .f32⟩
  | .hbm, ⟨16, _⟩ => ⟨S8x6144x1, .i32⟩
  | .hbm, ⟨17, _⟩ => ⟨S8x6144, .i32⟩
  | .hbm, ⟨18, _⟩ => ⟨S8x6144x1, .i32⟩
  | .hbm, ⟨19, _⟩ => ⟨S8x6144x1, .i32⟩
  | .hbm, ⟨20, _⟩ => ⟨S8x6144, .i32⟩
  | .hbm, ⟨21, _⟩ => ⟨S8x6144x1, .i32⟩
  | .hbm, ⟨22, _⟩ => ⟨S_, .i32⟩
  | .hbm, ⟨23, _⟩ => ⟨S8x6144x1, .i32⟩
  | .hbm, ⟨24, _⟩ => ⟨S8x6144x1, .i1⟩
  | .hbm, ⟨25, _⟩ => ⟨S_, .i32⟩
  | .hbm, ⟨26, _⟩ => ⟨S8x6144x1, .i32⟩
  | .hbm, ⟨27, _⟩ => ⟨S8x6144x1, .i32⟩
  | .hbm, ⟨28, _⟩ => ⟨S8x6144x1, .i32⟩
  | .hbm, ⟨29, _⟩ => ⟨S1, .i32⟩
  | .hbm, ⟨30, _⟩ => ⟨S_, .i32⟩
  | .hbm, ⟨31, _⟩ => ⟨S8x6144x1, .i32⟩
  | .hbm, ⟨32, _⟩ => ⟨S8x6144x1, .i1⟩
  | .hbm, ⟨33, _⟩ => ⟨S1x1x1, .i32⟩
  | .hbm, ⟨34, _⟩ => ⟨S8x6144x1, .i32⟩
  | .hbm, ⟨35, _⟩ => ⟨S8x6144x1, .i1⟩
  | .hbm, ⟨36, _⟩ => ⟨S8x6144x1, .i1⟩
  | .hbm, ⟨37, _⟩ => ⟨S_, .i1⟩
  | .hbm, ⟨38, _⟩ => ⟨S8x6144, .i1⟩
  | .hbm, ⟨39, _⟩ => ⟨S8x6144x768, .f32⟩
  | .hbm, ⟨40, _⟩ => ⟨S8x6144x768, .i1⟩
  | .hbm, ⟨41, _⟩ => ⟨S_, .f32⟩
  | .hbm, ⟨42, _⟩ => ⟨S8x6144x768, .f32⟩
  | .hbm, ⟨43, _⟩ => ⟨S8x6144x768, .f32⟩
  | .hbm, ⟨44, _⟩ => ⟨S_, .i32⟩
  | .hbm, ⟨45, _⟩ => ⟨S8x6144x1, .i32⟩
  | .hbm, ⟨46, _⟩ => ⟨S8x6144x1, .i1⟩
  | .hbm, ⟨47, _⟩ => ⟨S_, .i32⟩
  | .hbm, ⟨48, _⟩ => ⟨S8x6144x1, .i32⟩
  | .hbm, ⟨49, _⟩ => ⟨S8x6144x1, .i32⟩
  | .hbm, ⟨50, _⟩ => ⟨S8x6144x1, .i32⟩
  | .hbm, ⟨51, _⟩ => ⟨S1, .i32⟩
  | .hbm, ⟨52, _⟩ => ⟨S_, .i32⟩
  | .hbm, ⟨53, _⟩ => ⟨S8x6144x1, .i32⟩
  | .hbm, ⟨54, _⟩ => ⟨S8x6144x1, .i1⟩
  | .hbm, ⟨55, _⟩ => ⟨S1x1x1, .i32⟩
  | .hbm, ⟨56, _⟩ => ⟨S8x6144x1, .i32⟩
  | .hbm, ⟨57, _⟩ => ⟨S8x6144x1, .i1⟩
  | .hbm, ⟨58, _⟩ => ⟨S8x6144x1, .i1⟩
  | .hbm, ⟨59, _⟩ => ⟨S_, .i1⟩
  | .hbm, ⟨60, _⟩ => ⟨S8x6144, .i1⟩
  | .hbm, ⟨61, _⟩ => ⟨S8x6144x768, .f32⟩
  | .hbm, ⟨62, _⟩ => ⟨S8x6144x768, .i1⟩
  | .hbm, ⟨63, _⟩ => ⟨S_, .f32⟩
  | .hbm, ⟨64, _⟩ => ⟨S8x6144x768, .f32⟩
  | .hbm, ⟨65, _⟩ => ⟨S8x6144x768, .f32⟩
  | .hbm, ⟨66, _⟩ => ⟨S8x6144x1536, .f32⟩
  | .hbm, ⟨67, _⟩ => ⟨S_, .f32⟩
  | .hbm, ⟨68, _⟩ => ⟨S8x6144x1536, .f32⟩
  | .hbm, ⟨69, _⟩ => ⟨S8x6144x1536, .f32⟩
  | .hbm, ⟨70, _⟩ => ⟨S8x6144x768, .f32⟩
  | .hbm, ⟨71, _⟩ => ⟨S1x1x768, .f32⟩
  | .hbm, ⟨72, _⟩ => ⟨S8x6144x768, .f32⟩
  | .hbm, ⟨73, _⟩ => ⟨S8x6144x768, .f32⟩
  | .hbm, ⟨74, _⟩ => ⟨S8x512x12x768, .f32⟩
  | _, _ => ⟨S8x512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_c : Ref sig .tc := ⟨.hbm, 22, rfl⟩
abbrev main_call0_v0 : Ref sig .tc := ⟨.hbm, 23, rfl⟩
abbrev main_call0_v1 : Ref sig .tc := ⟨.hbm, 24, rfl⟩
abbrev main_call0_c_0 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_c_1 : Ref sig .tc := ⟨.hbm, 29, rfl⟩
abbrev main_call0_c_2 : Ref sig .tc := ⟨.hbm, 30, rfl⟩
abbrev main_call0_v5 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_v9 : Ref sig .tc := ⟨.hbm, 35, rfl⟩
abbrev main_call0_v10 : Ref sig .tc := ⟨.hbm, 36, rfl⟩
abbrev main_call0_c_3 : Ref sig .tc := ⟨.hbm, 37, rfl⟩
abbrev main_call0_v11 : Ref sig .tc := ⟨.hbm, 38, rfl⟩
abbrev main_call0_v12 : Ref sig .tc := ⟨.hbm, 39, rfl⟩
abbrev main_call0_v13 : Ref sig .tc := ⟨.hbm, 40, rfl⟩
abbrev main_call0_cst : Ref sig .tc := ⟨.hbm, 41, rfl⟩
abbrev main_call0_v14 : Ref sig .tc := ⟨.hbm, 42, rfl⟩
abbrev main_v14 : Ref sig .tc := ⟨.hbm, 43, rfl⟩
abbrev main_call1_c : Ref sig .tc := ⟨.hbm, 44, rfl⟩
abbrev main_call1_v0 : Ref sig .tc := ⟨.hbm, 45, rfl⟩
abbrev main_call1_v1 : Ref sig .tc := ⟨.hbm, 46, rfl⟩
abbrev main_call1_c_0 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_c_1 : Ref sig .tc := ⟨.hbm, 51, rfl⟩
abbrev main_call1_c_2 : Ref sig .tc := ⟨.hbm, 52, rfl⟩
abbrev main_call1_v5 : Ref sig .tc := ⟨.hbm, 53, rfl⟩
abbrev main_call1_v6 : Ref sig .tc := ⟨.hbm, 54, rfl⟩
abbrev main_call1_v7 : Ref sig .tc := ⟨.hbm, 55, rfl⟩
abbrev main_call1_v8 : Ref sig .tc := ⟨.hbm, 56, rfl⟩
abbrev main_call1_v9 : Ref sig .tc := ⟨.hbm, 57, rfl⟩
abbrev main_call1_v10 : Ref sig .tc := ⟨.hbm, 58, rfl⟩
abbrev main_call1_c_3 : Ref sig .tc := ⟨.hbm, 59, rfl⟩
abbrev main_call1_v11 : Ref sig .tc := ⟨.hbm, 60, rfl⟩
abbrev main_call1_v12 : Ref sig .tc := ⟨.hbm, 61, rfl⟩
abbrev main_call1_v13 : Ref sig .tc := ⟨.hbm, 62, rfl⟩
abbrev main_call1_cst : Ref sig .tc := ⟨.hbm, 63, rfl⟩
abbrev main_call1_v14 : Ref sig .tc := ⟨.hbm, 64, rfl⟩
abbrev main_v15 : Ref sig .tc := ⟨.hbm, 65, rfl⟩
abbrev main_v16 : Ref sig .tc := ⟨.hbm, 66, rfl⟩
abbrev main_call2_cst : Ref sig .tc := ⟨.hbm, 67, rfl⟩
abbrev main_call2_v0 : Ref sig .tc := ⟨.hbm, 68, rfl⟩
abbrev main_v17 : Ref sig .tc := ⟨.hbm, 69, rfl⟩
abbrev main_v18 : Ref sig .tc := ⟨.hbm, 70, rfl⟩
abbrev main_v19 : Ref sig .tc := ⟨.hbm, 71, rfl⟩
abbrev main_v20 : Ref sig .tc := ⟨.hbm, 72, rfl⟩
abbrev main_v21 : Ref sig .tc := ⟨.hbm, 73, rfl⟩
abbrev main_v22 : Ref sig .tc := ⟨.hbm, 74, rfl⟩

abbrev nD : Nat := 1
abbrev τ : Topo := Topo.v7x

variable {F : FTy → Type} [FloatOps F]

class Facts₀ : Prop where
  bcast_S768_S1x1x768_2 : S768.BroadcastsInDim S1x1x768 (![2] : Fin 1 → Fin S1x1x768.rank)
  bcast_S1x1x768_S8x512x768_0_1_2 : S1x1x768.BroadcastsInDim S8x512x768 (![0, 1, 2] : Fin 3 → Fin S8x512x768.rank)
  slices_S8x6144x2_S8x6144x1_0_0_0 : S8x6144x2.Slices ![0, 0, 0] S8x6144x1
  shapeCasts_S8x6144x1_S8x6144 : S8x6144x1.ShapeCasts S8x6144
  bcast_S8x6144_S8x6144x1_0_1 : S8x6144.BroadcastsInDim S8x6144x1 (![0, 1] : Fin 2 → Fin S8x6144x1.rank)
  slices_S8x6144x2_S8x6144x1_0_0_1 : S8x6144x2.Slices ![0, 0, 1] S8x6144x1
  bcast_S_S8x6144x1 : S_.BroadcastsInDim S8x6144x1 (![] : Fin 0 → Fin S8x6144x1.rank)
  bcast_S1_S1x1x1_2 : S1.BroadcastsInDim S1x1x1 (![2] : Fin 1 → Fin S1x1x1.rank)
  bcast_S1x1x1_S8x6144x1_0_1_2 : S1x1x1.BroadcastsInDim S8x6144x1 (![0, 1, 2] : Fin 3 → Fin S8x6144x1.rank)
  reducesTo_S8x6144x1_S8x6144_d2 : S8x6144x1.ReducesTo [2] S8x6144
  h_S_ : 0 < S_.numel
  bcast_S8x6144_S8x6144x768_0_1 : S8x6144.BroadcastsInDim S8x6144x768 (![0, 1] : Fin 2 → Fin S8x6144x768.rank)
  bcast_S_S8x6144x768 : S_.BroadcastsInDim S8x6144x768 (![] : Fin 0 → Fin S8x6144x768.rank)
  concatenates_S8x6144x768_S8x6144x768_S8x6144x1536_d2 : Shape.Concatenates [S8x6144x768, S8x6144x768] S8x6144x1536 2
  bcast_S_S8x6144x1536 : S_.BroadcastsInDim S8x6144x1536 (![] : Fin 0 → Fin S8x6144x1536.rank)
  bcast_S1x1x768_S8x6144x768_0_1_2 : S1x1x768.BroadcastsInDim S8x6144x768 (![0, 1, 2] : Fin 3 → Fin S8x6144x768.rank)
  shapeCasts_S8x6144x768_S8x512x12x768 : S8x6144x768.ShapeCasts S8x512x12x768
  dot_S8x512x768_S768x768_S8x512x768_2_0_01_1_n_n_wf : DotDims.WF S8x512x768 S768x768 S8x512x768 [2] [0] [0, 1] [1] [] []
  gather_S8x512x768_S8x6144x1_S8x6144x768_2_1_0_0_1_2_11768_wf : GatherDims.WF S8x512x768 S8x6144x1 S8x6144x768 [2] [1] [0] [1] [0] 2 ![1, 1, 768]
  dot_S8x6144x1536_S1536x768_S8x6144x768_2_0_01_1_n_n_wf : DotDims.WF S8x6144x1536 S1536x768 S8x6144x768 [2] [0] [0, 1] [1] [] []

variable [Facts₀]

def dot_S8x512x768_S768x768_S8x512x768_2_0_01_1_n_n : DotDims S8x512x768 S768x768 S8x512x768 where
  lhsContracting := [2]
  rhsContracting := [0]
  lhsNonContracting := [0, 1]
  rhsNonContracting := [1]
  lhsBatch := []
  rhsBatch := []
  wf := dot_S8x512x768_S768x768_S8x512x768_2_0_01_1_n_n_wf
def gather_S8x512x768_S8x6144x1_S8x6144x768_2_1_0_0_1_2_11768 : GatherDims S8x512x768 S8x6144x1 S8x6144x768 where
  offsetDims := [2]
  collapsedSliceDims := [1]
  operandBatchingDims := [0]
  startIndicesBatchingDims := [0]
  startIndexMap := [1]
  indexVectorDim := 2
  sliceSizes := ![1, 1, 768]
  wf := gather_S8x512x768_S8x6144x1_S8x6144x768_2_1_0_0_1_2_11768_wf
def dot_S8x6144x1536_S1536x768_S8x6144x768_2_0_01_1_n_n : DotDims S8x6144x1536 S1536x768 S8x6144x768 where
  lhsContracting := [2]
  rhsContracting := [0]
  lhsNonContracting := [0, 1]
  rhsNonContracting := [1]
  lhsBatch := []
  rhsBatch := []
  wf := dot_S8x6144x1536_S1536x768_S8x6144x768_2_0_01_1_n_n_wf

class Facts : Prop extends Facts₀ where

variable [Facts]
-- ==== Proof.Spec.lean ====
/-
  The mathematics of the span-pair scorer, as plain functions of the argument arrays over the extended reals.

  For a batch b, a token l and a feature f let  hid W β (b, l, f) = ∑ d, h[b, l, d] · W[d, f] + β[f]  (one linear layer).
  For a span n of batch b with start token s = idx[b, n, 0] and end token e = idx[b, n, 1] the result is

      out[b, n, j] = ∑ f < 1536, relu (cat[b, n, f]) · Wo[f, j] + bo[j],    cat[b, n, ·] = hid Ws bs (b, s, ·) ++ hid We be (b, e, ·).

  The sum over the 1536 joined features splits into the 768 start features against the top half of Wo and the 768 end
  features against its bottom half (`sum_halves`), so with

      tok W β U [b, l, j] = ∑ f < 768, relu (hid W β (b, l, f)) · U[f, j]

  (a per-token table, 512 rows a batch) the result is  tok Ws bs Wo_top [b, s, j] + tok We be Wo_bot [b, e, j] + bo[j]:
  a row of each table picked by the span's index word. Picking a row by a one-hot matrix product is the same pick
  (`onehot_pick`): 0 · x = 0 and 1 · x = x for every extended real x, so no finiteness is needed anywhere.
  The span axis n = 12 · l + k is laid out as [512, 12] in the result.
-/
import Idealize.ShloMosaic.PureOps.Ideal
import Idealize.ShloMosaic.PureOps.Ideal.Laws
import Idealize.ShloMosaic.Lib.ValueIdx

noncomputable section

open scoped BigOperators

namespace Cert.Span

open Idealize.ShloMosaic Idealize.ShloMosaic.ValueIdx

/-- token representations and the two per-token tables: 8 batches × 512 tokens × 768 features -/
abbrev STok : Shape := ⟨3, ![8, 512, 768]⟩
/-- the span index pairs: 8 batches × 6144 spans × (start, end) -/
abbrev SPair : Shape := ⟨3, ![8, 6144, 2]⟩
/-- one column of index words: 8 × 6144 × 1 -/
abbrev SCol : Shape := ⟨3, ![8, 6144, 1]⟩
abbrev SSq : Shape := ⟨2, ![768, 768]⟩
abbrev SVec : Shape := ⟨1, ![768]⟩
abbrev STall : Shape := ⟨2, ![1536, 768]⟩
/-- the result before its span axis is laid out as [512, 12] -/
abbrev SSpan : Shape := ⟨3, ![8, 6144, 768]⟩
abbrev SOut : Shape := ⟨4, ![8, 512, 12, 768]⟩

/-- The token row an index word names. For a word below 512 it is the word's value. -/
def rowOf (w : BitVec 32) : Fin 512 := ⟨w.toNat % 512, Nat.mod_lt _ (by decide)⟩

theorem rowOf_val {w : BitVec 32} (h : w.toNat < 512) : (rowOf w).val = w.toNat := Nat.mod_eq_of_lt h

/-- One linear layer at a token: ∑ d, h[b, l, d] · W[d, f] + β[f]. -/
def hid (h : STok.Idx → EReal) (W : SSq.Idx → EReal) (β : SVec.Idx → EReal) (b : Fin 8) (l : Fin 512) (f : Fin 768) : EReal :=
  (∑ d : Fin 768, h (ix3 b l d) * W (ix2 d f)) + β (ix1 f)

/-- The per-token table: relu of the layer, then a second matrix: ∑ f, max (hid …) 0 · U[f, j]. -/
def tok (h : STok.Idx → EReal) (W : SSq.Idx → EReal) (β : SVec.Idx → EReal) (U : SSq.Idx → EReal) : STok.Idx → EReal :=
  fun i => ∑ f : Fin 768, max (hid h W β ⟨(i 0).val, (i 0).isLt⟩ ⟨(i 1).val, (i 1).isLt⟩ f) 0 * U (ix2 f ⟨(i 2).val, (i 2).isLt⟩)

theorem tok_apply (h : STok.Idx → EReal) (W : SSq.Idx → EReal) (β : SVec.Idx → EReal) (U : SSq.Idx → EReal) (b : Fin 8) (l : Fin 512) (j : Fin 768) :
    tok h W β U (ix3 b l j) = ∑ f : Fin 768, max (hid h W β b l f) 0 * U (ix2 f j) := rfl

/-- Rows 0 … 767 of the 1536 × 768 matrix. -/
def topHalf (Wo : STall.Idx → EReal) : SSq.Idx → EReal :=
  fun i => Wo (ix2 (⟨(i 0).val, Nat.lt_trans (i 0).isLt (by decide)⟩ : Fin 1536) (⟨(i 1).val, (i 1).isLt⟩ : Fin 768))

/-- Rows 768 … 1535 of the 1536 × 768 matrix. -/
def botHalf (Wo : STall.Idx → EReal) : SSq.Idx → EReal :=
  fun i => Wo (ix2 (⟨768 + (i 0).val, by have h0 : (i 0).val < 768 := (i 0).isLt; show 768 + (i 0).val < 1536; omega⟩ : Fin 1536) (⟨(i 1).val, (i 1).isLt⟩ : Fin 768))

theorem topHalf_apply (Wo : STall.Idx → EReal) (f j : Fin 768) :
    topHalf Wo (ix2 f j) = Wo (ix2 (⟨f.val, Nat.lt_trans f.isLt (by decide)⟩ : Fin 1536) j) := rfl

theorem botHalf_apply (Wo : STall.Idx → EReal) (f j : Fin 768) :
    botHalf Wo (ix2 f j) = Wo (ix2 (⟨768 + f.val, by have := f.isLt; omega⟩ : Fin 1536) j) := rfl

/-- Spans gathered from two per-token tables by two columns of index words, plus a bias:
    ps[b, row s, j] + pe[b, row e, j] + bo[j]. -/
def gathered (is ie : SCol.Idx → BitVec 32) (ps pe : STok.Idx → EReal) (bo : SVec.Idx → EReal) : SSpan.Idx → EReal :=
  fun i =>
    let b : Fin 8 := ⟨(i 0).val, (i 0).isLt⟩
    let n : Fin 6144 := ⟨(i 1).val, (i 1).isLt⟩
    let j : Fin 768 := ⟨(i 2).val, (i 2).isLt⟩
    (ps (ix3 b (rowOf (is (ix3 b n (0 : Fin 1)))) j) + pe (ix3 b (rowOf (ie (ix3 b n (0 : Fin 1)))) j)) + bo (ix1 j)

theorem gathered_apply (is ie : SCol.Idx → BitVec 32) (ps pe : STok.Idx → EReal) (bo : SVec.Idx → EReal) (b : Fin 8) (n : Fin 6144) (j : Fin 768) :
    gathered is ie ps pe bo (ix3 b n j)
      = (ps (ix3 b (rowOf (is (ix3 b n (0 : Fin 1)))) j) + pe (ix3 b (rowOf (ie (ix3 b n (0 : Fin 1)))) j)) + bo (ix1 j) := rfl

/-- THE RESULT, as one function of the eight argument arrays, over [8, 512, 12, 768]: span n = 12 · l + k. -/
def result (h : STok.Idx → EReal) (idx : SPair.Idx → BitVec 32) (Ws : SSq.Idx → EReal) (bs : SVec.Idx → EReal)
    (We : SSq.Idx → EReal) (be : SVec.Idx → EReal) (Wo : STall.Idx → EReal) (bo : SVec.Idx → EReal) : SOut.Idx → EReal :=
  fun i =>
    let b : Fin 8 := ⟨(i 0).val, (i 0).isLt⟩
    let n : Fin 6144 := ⟨12 * (i 1).val + (i 2).val, by
      have h1 : (i 1).val < 512 := (i 1).isLt
      have h2 : (i 2).val < 12 := (i 2).isLt
      omega⟩
    let j : Fin 768 := ⟨(i 3).val, (i 3).isLt⟩
    (tok h Ws bs (topHalf Wo) (ix3 b (rowOf (idx (ix3 b n (0 : Fin 2)))) j)
      + tok h We be (botHalf Wo) (ix3 b (rowOf (idx (ix3 b n (1 : Fin 2)))) j)) + bo (ix1 j)

/-! ## The two laws -/

/-- A sum over 1536 joined features is the sum over the first 768 plus the sum over the last 768. -/
theorem sum_halves {M : Type*} [AddCommMonoid M] (g : Fin 1536 → M) :
    ∑ k : Fin 1536, g k
      = (∑ f : Fin 768, g ⟨f.val, Nat.lt_trans f.isLt (by decide)⟩) + ∑ f : Fin 768, g ⟨768 + f.val, by have := f.isLt; omega⟩ := by
  have e := Fin.sum_univ_add (a := 768) (b := 768) (fun k : Fin (768 + 768) => g ⟨k.val, k.isLt⟩)
  exact e

/-- Picking a row by a one-hot weighting: ∑ l, [l = r] · x l = x r on the extended reals. -/
theorem onehot_pick {n : Nat} (r : Fin n) (x : Fin n → EReal) (w : Fin n → EReal)
    (h1 : w r = 1) (h0 : ∀ l, l ≠ r → w l = 0) : ∑ l : Fin n, w l * x l = x r := by
  rw [Finset.sum_eq_single r (fun l _ hl => by rw [h0 l hl, zero_mul]) (fun hr => absurd (Finset.mem_univ r) hr), h1, one_mul]

end Cert.Span

end
-- ==== Proof.Region0Pay.lean ====
/-
  The first call's arithmetic, read at one element over the extended reals.

  Each body run forms, from a batch's 512 × 768 block x and three resident operands W (768 × 768), β (768) and U (768 × 768),
  the table  relu (x W + β) U : two matrix products, each into a zero accumulator, with the bias row broadcast over the
  tokens and relu taken as the maximum with zero. Over the extended reals a change of float format is the identity and a
  product into the zero accumulator is the plain sum over the contracted axis, so at token l and column j the table is

      ∑ f < 768, max ((∑ d < 768, x[0, l, d] · W[d, f]) + β[f]) 0 · U[f, j].

  First the product's operand indices axis by axis (the left operand is read at (l, k), the right at (k, j)), then the
  product at an index, then the two payloads.
-/
import proofs.«422982_j26671746908734_3_alg».proof.Proof.Gen.KernelIdeal.Skeleton
import proofs.«422982_j26671746908734_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.TcCoe Idealize.SL.Sem Idealize.ShloMosaic.ValueIdx

namespace Cert.Span.Region0

open Cert.KernelIdeal Cert.KernelIdeal.Gen

/-! ## The matrix product's operand indices, axis by axis -/

theorem lhs_dot_0 (i : S512x768.Idx) (q : dot_S512x768_S768x768_S512x768_1_0_0_1_n_n.contr.Idx) :
    (dot_S512x768_S768x768_S512x768_1_0_0_1_n_n.lhsIdx i q 0).val = (i 0).val := by
  unfold DotDims.lhsIdx
  rw [dif_neg (show ¬(0 : Fin S512x768.rank) ∈ dot_S512x768_S768x768_S512x768_1_0_0_1_n_n.lhsBatch by decide), dif_pos (show (0 : Fin S512x768.rank) ∈ dot_S512x768_S768x768_S512x768_1_0_0_1_n_n.lhsNonContracting by decide)]
  rfl

theorem lhs_dot_1 (i : S512x768.Idx) (q : dot_S512x768_S768x768_S512x768_1_0_0_1_n_n.contr.Idx) :
    (dot_S512x768_S768x768_S512x768_1_0_0_1_n_n.lhsIdx i q 1).val = (q ⟨0, by decide⟩).val :=
  dot_S512x768_S768x768_S512x768_1_0_0_1_n_n.lhsIdx_val_of_single rfl i q

theorem rhs_dot_0 (i : S512x768.Idx) (q : dot_S512x768_S768x768_S512x768_1_0_0_1_n_n.contr.Idx) :
    (dot_S512x768_S768x768_S512x768_1_0_0_1_n_n.rhsIdx i q 0).val = (q ⟨0, by decide⟩).val :=
  dot_S512x768_S768x768_S512x768_1_0_0_1_n_n.rhsIdx_val_of_single rfl i q

theorem rhs_dot_1 (i : S512x768.Idx) (q : dot_S512x768_S768x768_S512x768_1_0_0_1_n_n.contr.Idx) :
    (dot_S512x768_S768x768_S512x768_1_0_0_1_n_n.rhsIdx i q 1).val = (i 1).val := by
  unfold DotDims.rhsIdx
  rw [dif_neg (show ¬(1 : Fin S768x768.rank) ∈ dot_S512x768_S768x768_S512x768_1_0_0_1_n_n.rhsBatch by decide), dif_pos (show (1 : Fin S768x768.rank) ∈ dot_S512x768_S768x768_S512x768_1_0_0_1_n_n.rhsNonContracting by decide)]
  rfl

/-- A [512,768] × [768,768] product into the zero accumulator, at row l and column j: ∑ k, A[l,k] · B[k,j]. -/
theorem matmul_zero_apply (A : FVec Ideal S512x768 .bf16) (B : FVec Ideal S768x768 .bf16) (l : Fin 512) (j : Fin 768) :
    matmul dot_S512x768_S768x768_S512x768_1_0_0_1_n_n none A B (constant (F := Ideal) S512x768 .f32 0x00000000#32) (ix2 l j)
      = ∑ k : Fin 768, A (ix2 l k) * B (ix2 k j) := by
  simp only [matmul]
  rw [Ideal.matmul_constant_zero_apply, ← Equiv.sum_comp (contrEquiv1 dot_S512x768_S768x768_S512x768_1_0_0_1_n_n 768 rfl rfl).symm]
  refine Finset.sum_congr rfl fun k _ => ?_
  have hk := contrEquiv1_symm_val dot_S512x768_S768x768_S512x768_1_0_0_1_n_n 768 rfl rfl k
  have el : dot_S512x768_S768x768_S512x768_1_0_0_1_n_n.lhsIdx (ix2 l j) ((contrEquiv1 dot_S512x768_S768x768_S512x768_1_0_0_1_n_n 768 rfl rfl).symm k) = ix2 l k := funext fun a => Fin.ext (by
    match a with
    | ⟨0, _⟩ => exact lhs_dot_0 _ _
    | ⟨1, _⟩ => exact (lhs_dot_1 _ _).trans hk)
  have er : dot_S512x768_S768x768_S512x768_1_0_0_1_n_n.rhsIdx (ix2 l j) ((contrEquiv1 dot_S512x768_S768x768_S512x768_1_0_0_1_n_n 768 rfl rfl).symm k) = ix2 k j := funext fun a => Fin.ext (by
    match a with
    | ⟨0, _⟩ => exact (rhs_dot_0 _ _).trans hk
    | ⟨1, _⟩ => exact rhs_dot_1 _ _)
  rw [el, er]

/-! ## The payloads at an index

At the extended reals every change of float format is the identity and a product into the zero accumulator is the plain
sum, so the second call's per-token table reads, at token l and column j, as
∑ f, max ((∑ d, x[0, l, d] · W[d, f]) + β[f]) 0 · U[f, j]. -/

/-- One linear layer of the loaded block: (x W)[l, f] + β[f], the bias row broadcast over the 512 tokens. -/
theorem layer_apply (x0 : Vec Ideal S1x512x768 .f32) (W : Vec Ideal S768x768 .f32) (β : Vec Ideal S768 .f32)
    (hb : FTy.bits .bf16 < FTy.bits .f32) (hc : S768.ShapeCasts S1x768) (hbr : S1x768.Broadcasts S512x768) (l : Fin 512) (f : Fin 768) :
    addf (matmul dot_S512x768_S768x768_S512x768_1_0_0_1_n_n none (k0_pay2 (F := Ideal) x0) (truncf .bf16 W hb) (constant (F := Ideal) S512x768 .f32 0x00000000#32))
        (broadcastTo S512x768 (shapeCast S1x768 β hc) hbr) (ix2 l f)
      = (∑ d : Fin 768, x0 (ix3 (0 : Fin 1) l d) * W (ix2 d f)) + β (ix1 f) := by
  refine (addf_apply _ _ _).trans ?_
  rw [matmul_zero_apply, broadcastTo_1b_ab_apply, shapeCast_a_1a_apply]
  refine congrArg (· + β (ix1 f)) (Finset.sum_congr rfl fun d _ => ?_)
  unfold k0_pay2
  refine congrArg (· * W (ix2 d f)) ?_
  exact shapeCast_1ab_ab_apply x0 _ l d

/-- The table the second product leaves, before its leading unit axis is put back. -/
theorem k0_pay3_apply (x0 : Vec Ideal S1x512x768 .f32) (W : Vec Ideal S768x768 .f32) (β : Vec Ideal S768 .f32) (U : Vec Ideal S768x768 .f32)
    (l : Fin 512) (j : Fin 768) :
    k0_pay3 (F := Ideal) x0 W β U (ix2 l j)
      = ∑ f : Fin 768, max ((∑ d : Fin 768, x0 (ix3 (0 : Fin 1) l d) * W (ix2 d f)) + β (ix1 f)) 0 * U (ix2 f j) := by
  unfold k0_pay3
  refine (matmul_zero_apply _ _ l j).trans ?_
  refine Finset.sum_congr rfl fun f _ => ?_
  rw [shapeCast_self]
  refine (congrArg (· * U (ix2 f j)) (maximumf_apply _ _ (ix2 l f))).trans ?_
  rw [layer_apply]
  exact congrArg (fun z => max _ z * U (ix2 f j)) Ideal.ofBits_zero_f32

/-- The same table with the leading unit axis: what the body stores into the first output's buffer. -/
theorem k0_pay4_apply (x0 : Vec Ideal S1x512x768 .f32) (W : Vec Ideal S768x768 .f32) (β : Vec Ideal S768 .f32) (U : Vec Ideal S768x768 .f32)
    (u : Fin 1) (l : Fin 512) (j : Fin 768) :
    k0_pay4 (F := Ideal) x0 W β U (ix3 u l j)
      = ∑ f : Fin 768, max ((∑ d : Fin 768, x0 (ix3 (0 : Fin 1) l d) * W (ix2 d f)) + β (ix1 f)) 0 * U (ix2 f j) := by
  unfold k0_pay4
  refine (shapeCast_ab_1ab_apply _ _ u l j).trans ?_
  refine (matmul_zero_apply _ _ l j).trans ?_
  refine Finset.sum_congr rfl fun f _ => ?_
  rw [shapeCast_self]
  refine (congrArg (· * U (ix2 f j)) (maximumf_apply _ _ (ix2 l f))).trans ?_
  rw [layer_apply]
  exact congrArg (fun z => max _ z * U (ix2 f j)) Ideal.ofBits_zero_f32

/-- Putting the leading unit axis back reads the table at the token and column. -/
theorem k0_pay1_apply (v : FVec Ideal S512x768 .f32) (u : Fin 1) (l : Fin 512) (j : Fin 768) :
    k0_pay1 (F := Ideal) v (ix3 u l j) = v (ix2 l j) := by
  unfold k0_pay1
  exact shapeCast_ab_1ab_apply v _ u l j

end Cert.Span.Region0

end
-- ==== Proof.Region0Value.lean ====
/-
  The first pallas_call, read as values over the extended reals: per batch it computes, from that batch's 512 token rows,
  the two per-token tables  ps = relu (h Ws + bs) · Wo_top  and  pe = relu (h We + be) · Wo_bot  (two matrix products
  each, into zero accumulators; the changes of float format are the identity). Its two output arrays after the run are
  the spec's `tok` of the arrays the region is entered with — whatever those are.

  The road. Every grid point t works on batch t: its token block is batch t of the token array, the six other operands are
  resident (their block at every point is the whole array), and each output block sits at batch t. So what point t writes
  back, read at (0, l, j), is the table's sum at (t, l, j) (the payload lemmas of the sibling module), which is the spec's
  table there; the eight blocks are disjoint slabs that together cover [8, 512, 768], so each output array ends as the table.
-/
import proofs.«422982_j26671746908734_3_alg».proof.Proof.Gen.KernelIdeal.Frame
import proofs.«422982_j26671746908734_3_alg».proof.Proof.Spec
import proofs.«422982_j26671746908734_3_alg».proof.Proof.Region0Pay
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.TcCoe Idealize.SL.Sem Idealize.ShloMosaic.ValueIdx
open Idealize.ShloMosaic.Pipeline (Dat)

namespace Cert.Span.Region0

open Cert.KernelIdeal Cert.KernelIdeal.Gen

variable (V : (c : Dev nD) → (b : Ref sig .tc) → Buf (Elt Ideal) ((c : Thread nD τ).loc b))

theorem hz3 : (![0, 0, 0] : Fin 3 → Nat) = fun _ => 0 := funext fun a => by
  match a with | ⟨0, _⟩ => rfl | ⟨1, _⟩ => rfl | ⟨2, _⟩ => rfl
theorem hz2 : (![0, 0] : Fin 2 → Nat) = fun _ => 0 := funext fun a => by
  match a with | ⟨0, _⟩ => rfl | ⟨1, _⟩ => rfl
theorem hz1 : (![0] : Fin 1 → Nat) = fun _ => 0 := funext fun a => by
  match a with | ⟨0, _⟩ => rfl

/-- The index maps over the grid: the token block and the two output blocks sit at the batch, every other block at the origin. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 3) = t.val ∧ win0_7.index t (1 : Fin 3) = 0 ∧ win0_7.index t (2 : Fin 3) = 0
    ∧ win0_8.index t (0 : Fin 3) = t.val ∧ win0_8.index t (1 : Fin 3) = 0 ∧ win0_8.index t (2 : Fin 3) = 0 :=
  (by decide +kernel : ∀ t : Fin grid0.N, _)

/-- The batch a grid point works on. -/
def batchOf (t : Fin cfg0.N) : Fin 8 := Fin.cast N_0 t

theorem batchOf_val (t : Fin cfg0.N) : (batchOf t).val = t.val := rfl

/-! ## The input blocks at an index -/

/-- The token block at point t is batch t of the token array. -/
theorem iblk_tok (c : Dev nD) (t : Fin cfg0.N) (u : Fin 1) (l : Fin 512) (d : Fin 768) :
    (iblk0 V c 0 t : Vec Ideal S1x512x768 .f32) (ix3 u l d) = (V c main_arg0 : Cert.Span.STok.Idx → EReal) (ix3 (batchOf t) l d) := by
  obtain ⟨e0, e1, e2, -⟩ := idx_facts t
  unfold iblk0
  show V c main_arg0 (((cfg0.win 0).blk t).view.emb (ix3 u l d)) = V c main_arg0 (ix3 (batchOf t) l d)
  refine congrArg _ (funext fun a => Fin.ext ?_)
  match a with
  | ⟨0, _⟩ => show win0_0.index t (0 : Fin 3) * 1 + 1 * u.val = t.val; have := u.isLt; omega
  | ⟨1, _⟩ => show win0_0.index t (1 : Fin 3) * 512 + 1 * l.val = l.val; omega
  | ⟨2, _⟩ => show win0_0.index t (2 : Fin 3) * 768 + 1 * d.val = d.val; omega

/-- The start layer's matrix is resident: its block at every point is the whole matrix. -/
theorem iblk_Ws (c : Dev nD) (t : Fin cfg0.N) (p q : Fin 768) :
    (iblk0 V c 1 t : Vec Ideal S768x768 .f32) (ix2 p q) = (V c main_arg2 : Cert.Span.SSq.Idx → EReal) (ix2 p q) := by
  have hi := idx_facts t
  unfold iblk0
  show V c main_arg2 (((cfg0.win 1).blk t).view.emb (ix2 p q)) = V c main_arg2 (ix2 p q)
  refine congrArg _ (funext fun a => Fin.ext ?_)
  match a with
  | ⟨0, _⟩ => show win0_1.index t (0 : Fin 2) * 768 + 1 * p.val = p.val; omega
  | ⟨1, _⟩ => show win0_1.index t (1 : Fin 2) * 768 + 1 * q.val = q.val; omega

/-- The start layer's bias, whole at every point. -/
theorem iblk_bs (c : Dev nD) (t : Fin cfg0.N) (p : Fin 768) :
    (iblk0 V c 2 t : Vec Ideal S768 .f32) (ix1 p) = (V c main_arg3 : Cert.Span.SVec.Idx → EReal) (ix1 p) := by
  have hi := idx_facts t
  unfold iblk0
  show V c main_arg3 (((cfg0.win 2).blk t).view.emb (ix1 p)) = V c main_arg3 (ix1 p)
  refine congrArg _ (funext fun a => Fin.ext ?_)
  match a with
  | ⟨0, _⟩ => show win0_2.index t (0 : Fin 1) * 768 + 1 * p.val = p.val; omega

/-- The end layer's matrix, whole at every point. -/
theorem iblk_We (c : Dev nD) (t : Fin cfg0.N) (p q : Fin 768) :
    (iblk0 V c 3 t : Vec Ideal S768x768 .f32) (ix2 p q) = (V c main_arg4 : Cert.Span.SSq.Idx → EReal) (ix2 p q) := by
  have hi := idx_facts t
  unfold iblk0
  show V c main_arg4 (((cfg0.win 3).blk t).view.emb (ix2 p q)) = V c main_arg4 (ix2 p q)
  refine congrArg _ (funext fun a => Fin.ext ?_)
  match a with
  | ⟨0, _⟩ => show win0_3.index t (0 : Fin 2) * 768 + 1 * p.val = p.val; omega
  | ⟨1, _⟩ => show win0_3.index t (1 : Fin 2) * 768 + 1 * q.val = q.val; omega

/-- The end layer's bias, whole at every point. -/
theorem iblk_be (c : Dev nD) (t : Fin cfg0.N) (p : Fin 768) :
    (iblk0 V c 4 t : Vec Ideal S768 .f32) (ix1 p) = (V c main_arg5 : Cert.Span.SVec.Idx → EReal) (ix1 p) := by
  have hi := idx_facts t
  unfold iblk0
  show V c main_arg5 (((cfg0.win 4).blk t).view.emb (ix1 p)) = V c main_arg5 (ix1 p)
  refine congrArg _ (funext fun a => Fin.ext ?_)
  match a with
  | ⟨0, _⟩ => show win0_4.index t (0 : Fin 1) * 768 + 1 * p.val = p.val; omega

/-- The top half of the output matrix, whole at every point. -/
theorem iblk_Wt (c : Dev nD) (t : Fin cfg0.N) (p q : Fin 768) :
    (iblk0 V c 5 t : Vec Ideal S768x768 .f32) (ix2 p q) = (V c main_v0 : Cert.Span.SSq.Idx → EReal) (ix2 p q) := by
  have hi := idx_facts t
  unfold iblk0
  show V c main_v0 (((cfg0.win 5).blk t).view.emb (ix2 p q)) = V c main_v0 (ix2 p q)
  refine congrArg _ (funext fun a => Fin.ext ?_)
  match a with
  | ⟨0, _⟩ => show win0_5.index t (0 : Fin 2) * 768 + 1 * p.val = p.val; omega
  | ⟨1, _⟩ => show win0_5.index t (1 : Fin 2) * 768 + 1 * q.val = q.val; omega

/-- The bottom half of the output matrix, whole at every point. -/
theorem iblk_Wb (c : Dev nD) (t : Fin cfg0.N) (p q : Fin 768) :
    (iblk0 V c 6 t : Vec Ideal S768x768 .f32) (ix2 p q) = (V c main_v1 : Cert.Span.SSq.Idx → EReal) (ix2 p q) := by
  have hi := idx_facts t
  unfold iblk0
  show V c main_v1 (((cfg0.win 6).blk t).view.emb (ix2 p q)) = V c main_v1 (ix2 p q)
  refine congrArg _ (funext fun a => Fin.ext ?_)
  match a with
  | ⟨0, _⟩ => show win0_6.index t (0 : Fin 2) * 768 + 1 * p.val = p.val; omega
  | ⟨1, _⟩ => show win0_6.index t (1 : Fin 2) * 768 + 1 * q.val = q.val; omega

/-! ## What a point stores is its batch of the table -/

/-- The per-token sum over the loaded blocks is the spec's table at the point's batch. -/
theorem table_blk (t : Fin cfg0.N)
    (x0 : Vec Ideal S1x512x768 .f32) (W : Vec Ideal S768x768 .f32) (β : Vec Ideal S768 .f32) (U : Vec Ideal S768x768 .f32)
    (h : Cert.Span.STok.Idx → EReal) (W' : Cert.Span.SSq.Idx → EReal) (β' : Cert.Span.SVec.Idx → EReal) (U' : Cert.Span.SSq.Idx → EReal)
    (hx : ∀ (l : Fin 512) (d : Fin 768), x0 (ix3 (0 : Fin 1) l d) = h (ix3 (batchOf t) l d))
    (hW : ∀ p q : Fin 768, W (ix2 p q) = W' (ix2 p q)) (hβ : ∀ p : Fin 768, β (ix1 p) = β' (ix1 p))
    (hU : ∀ p q : Fin 768, U (ix2 p q) = U' (ix2 p q)) (l : Fin 512) (j : Fin 768) :
    (∑ f : Fin 768, max ((∑ d : Fin 768, x0 (ix3 (0 : Fin 1) l d) * W (ix2 d f)) + β (ix1 f)) 0 * U (ix2 f j))
      = Cert.Span.tok h W' β' U' (ix3 (batchOf t) l j) := by
  rw [Cert.Span.tok_apply]
  unfold Cert.Span.hid
  refine Finset.sum_congr rfl fun f _ => ?_
  rw [hβ f, hU f j]
  refine congrArg (fun s => max (s + β' (ix1 f)) 0 * U' (ix2 f j)) (Finset.sum_congr rfl fun d _ => ?_)
  rw [hx l d, hW d f]

/-- WHAT POINT t WRITES BACK to the first output is block t of the start table. -/
theorem flushed7_eq (c : Dev nD) (t : Fin cfg0.N) :
    (dat0 (F := Ideal) V c).flushed 7 t = ((cfg0.win 7).blk t).view.read (Elt Ideal)
      (Cert.Span.tok (V c main_arg0) (V c main_arg2) (V c main_arg3) (V c main_v0)) := by
  show (cfg0.win 7).cut (grid0.coords t) ((dat0 (F := Ideal) V c).after 7 t) = _
  rw [after0_7]
  unfold out0_7
  rw [View.canon_unit_zero hz3]
  simp only [View.ld_unit_zero (S := S1x512x768) hz3, View.ld_unit_zero (S := S768x768) hz2, View.ld_unit_zero (S := S768) hz1]
  funext y
  obtain ⟨u, l, j, rfl⟩ : ∃ (u : Fin 1) (l : Fin 512) (j : Fin 768), y = ix3 u l j := ⟨y 0, y 1, y 2, eq_ix3 y⟩
  show k0_pay4 (F := Ideal) (iblk0 V c 0 t) (iblk0 V c 1 t) (iblk0 V c 2 t) (iblk0 V c 5 t) (ix3 u l j)
      = Cert.Span.tok (V c main_arg0) (V c main_arg2) (V c main_arg3) (V c main_v0) (((cfg0.win 7).blk t).view.emb (ix3 u l j))
  refine (k0_pay4_apply (iblk0 V c 0 t) (iblk0 V c 1 t) (iblk0 V c 2 t) (iblk0 V c 5 t) u l j).trans ?_
  refine (table_blk t _ _ _ _ _ _ _ _ (fun l d => iblk_tok V c t 0 l d) (iblk_Ws V c t) (iblk_bs V c t) (iblk_Wt V c t) l j).trans ?_
  obtain ⟨-, -, -, -, -, -, -, -, -, -, -, -, -, e0, e1, e2, -⟩ := idx_facts t
  refine congrArg _ (funext fun a => Fin.ext ?_)
  match a with
  | ⟨0, _⟩ => show t.val = win0_7.index t (0 : Fin 3) * 1 + 1 * u.val; have := u.isLt; omega
  | ⟨1, _⟩ => show l.val = win0_7.index t (1 : Fin 3) * 512 + 1 * l.val; omega
  | ⟨2, _⟩ => show j.val = win0_7.index t (2 : Fin 3) * 768 + 1 * j.val; omega

/-- WHAT POINT t WRITES BACK to the second output is block t of the end table. -/
theorem flushed8_eq (c : Dev nD) (t : Fin cfg0.N) :
    (dat0 (F := Ideal) V c).flushed 8 t = ((cfg0.win 8).blk t).view.read (Elt Ideal)
      (Cert.Span.tok (V c main_arg0) (V c main_arg4) (V c main_arg5) (V c main_v1)) := by
  show (cfg0.win 8).cut (grid0.coords t) ((dat0 (F := Ideal) V c).after 8 t) = _
  rw [after0_8]
  unfold out0_8
  rw [View.canon_unit_zero hz3]
  simp only [View.ld_unit_zero (S := S1x512x768) hz3, View.ld_unit_zero (S := S768x768) hz2, View.ld_unit_zero (S := S768) hz1]
  funext y
  obtain ⟨u, l, j, rfl⟩ : ∃ (u : Fin 1) (l : Fin 512) (j : Fin 768), y = ix3 u l j := ⟨y 0, y 1, y 2, eq_ix3 y⟩
  show k0_pay1 (F := Ideal) (k0_pay3 (F := Ideal) (iblk0 V c 0 t) (iblk0 V c 3 t) (iblk0 V c 4 t) (iblk0 V c 6 t)) (ix3 u l j)
      = Cert.Span.tok (V c main_arg0) (V c main_arg4) (V c main_arg5) (V c main_v1) (((cfg0.win 8).blk t).view.emb (ix3 u l j))
  refine (k0_pay1_apply _ u l j).trans ?_
  refine (k0_pay3_apply (iblk0 V c 0 t) (iblk0 V c 3 t) (iblk0 V c 4 t) (iblk0 V c 6 t) l j).trans ?_
  refine (table_blk t _ _ _ _ _ _ _ _ (fun l d => iblk_tok V c t 0 l d) (iblk_We V c t) (iblk_be V c t) (iblk_Wb V c t) l j).trans ?_
  obtain ⟨-, -, -, -, -, -, -, -, -, -, -, -, -, -, -, -, e0, e1, e2⟩ := idx_facts t
  refine congrArg _ (funext fun a => Fin.ext ?_)
  match a with
  | ⟨0, _⟩ => show t.val = win0_8.index t (0 : Fin 3) * 1 + 1 * u.val; have := u.isLt; omega
  | ⟨1, _⟩ => show l.val = win0_8.index t (1 : Fin 3) * 512 + 1 * l.val; omega
  | ⟨2, _⟩ => show j.val = win0_8.index t (2 : Fin 3) * 768 + 1 * j.val; omega

/-! ## The eight blocks cover each output array -/

/-- The point that works on a batch. -/
def pointOf (b : Fin 8) : Fin cfg0.N := Fin.cast N_0.symm b

theorem pointOf_val (b : Fin 8) : (pointOf b).val = b.val := rfl

/-- An index of the first output is in point t's block iff each coordinate is in the block's range on its axis. -/
theorem mem_blk7 (t : Fin cfg0.N) (i : Cert.Span.STok.Idx) :
    i ∈ ((cfg0.win 7).blk t).view.set ↔ ∀ a : Fin 3, win0_7.index t a * S1x512x768.size a ≤ (i a).val ∧ (i a).val < win0_7.index t a * S1x512x768.size a + S1x512x768.size a := by
  show i ∈ ((View.whole main_v2_0).slice (win0_7.rect t)).set ↔ _
  rw [View.set_slice_whole, Rect.mem_set_unit]
  exact Iff.rfl

/-- The same for the second output. -/
theorem mem_blk8 (t : Fin cfg0.N) (i : Cert.Span.STok.Idx) :
    i ∈ ((cfg0.win 8).blk t).view.set ↔ ∀ a : Fin 3, win0_8.index t a * S1x512x768.size a ≤ (i a).val ∧ (i a).val < win0_8.index t a * S1x512x768.size a + S1x512x768.size a := by
  show i ∈ ((View.whole main_v2_1).slice (win0_8.rect t)).set ↔ _
  rw [View.set_slice_whole, Rect.mem_set_unit]
  exact Iff.rfl

/-- Every index of the first output lies in the block of the point that works on its batch. -/
theorem cover7 (i : Cert.Span.STok.Idx) :
    ∃ t : Fin cfg0.N, (cfg0.win 7).flush t = true ∧ i ∈ ((cfg0.win 7).blk t).view.set := by
  have h0 : (i 0).val < 8 := (i 0).isLt
  have h1 : (i 1).val < 512 := (i 1).isLt
  have h2 : (i 2).val < 768 := (i 2).isLt
  refine ⟨pointOf ⟨(i 0).val, h0⟩, flush0_7 _, ?_⟩
  rw [mem_blk7]
  obtain ⟨-, -, -, -, -, -, -, -, -, -, -, -, -, e0, e1, e2, -⟩ := idx_facts (pointOf ⟨(i 0).val, h0⟩)
  have ev : (pointOf ⟨(i 0).val, h0⟩).val = (i 0).val := rfl
  intro a
  match a with
  | ⟨0, _⟩ => show win0_7.index (pointOf ⟨(i 0).val, h0⟩) (0 : Fin 3) * 1 ≤ (i 0).val ∧ (i 0).val < win0_7.index (pointOf ⟨(i 0).val, h0⟩) (0 : Fin 3) * 1 + 1; omega
  | ⟨1, _⟩ => show win0_7.index (pointOf ⟨(i 0).val, h0⟩) (1 : Fin 3) * 512 ≤ (i 1).val ∧ (i 1).val < win0_7.index (pointOf ⟨(i 0).val, h0⟩) (1 : Fin 3) * 512 + 512; omega
  | ⟨2, _⟩ => show win0_7.index (pointOf ⟨(i 0).val, h0⟩) (2 : Fin 3) * 768 ≤ (i 2).val ∧ (i 2).val < win0_7.index (pointOf ⟨(i 0).val, h0⟩) (2 : Fin 3) * 768 + 768; omega

/-- Every index of the second output lies in the block of the point that works on its batch. -/
theorem cover8 (i : Cert.Span.STok.Idx) :
    ∃ t : Fin cfg0.N, (cfg0.win 8).flush t = true ∧ i ∈ ((cfg0.win 8).blk t).view.set := by
  have h0 : (i 0).val < 8 := (i 0).isLt
  have h1 : (i 1).val < 512 := (i 1).isLt
  have h2 : (i 2).val < 768 := (i 2).isLt
  refine ⟨pointOf ⟨(i 0).val, h0⟩, flush0_8 _, ?_⟩
  rw [mem_blk8]
  obtain ⟨-, -, -, -, -, -, -, -, -, -, -, -, -, -, -, -, e0, e1, e2⟩ := idx_facts (pointOf ⟨(i 0).val, h0⟩)
  have ev : (pointOf ⟨(i 0).val, h0⟩).val = (i 0).val := rfl
  intro a
  match a with
  | ⟨0, _⟩ => show win0_8.index (pointOf ⟨(i 0).val, h0⟩) (0 : Fin 3) * 1 ≤ (i 0).val ∧ (i 0).val < win0_8.index (pointOf ⟨(i 0).val, h0⟩) (0 : Fin 3) * 1 + 1; omega
  | ⟨1, _⟩ => show win0_8.index (pointOf ⟨(i 0).val, h0⟩) (1 : Fin 3) * 512 ≤ (i 1).val ∧ (i 1).val < win0_8.index (pointOf ⟨(i 0).val, h0⟩) (1 : Fin 3) * 512 + 512; omega
  | ⟨2, _⟩ => show win0_8.index (pointOf ⟨(i 0).val, h0⟩) (2 : Fin 3) * 768 ≤ (i 2).val ∧ (i 2).val < win0_8.index (pointOf ⟨(i 0).val, h0⟩) (2 : Fin 3) * 768 + 768; omega

/-! ## The two output arrays after the call -/

/-- After the first call, its first output array holds the start table. -/
theorem ps_final (c : Dev nD) :
    ((dat0 (F := Ideal) V c).arrAt 7 cfg0.N : Cert.Span.STok.Idx → EReal)
      = Cert.Span.tok (V c main_arg0) (V c main_arg2) (V c main_arg3) (V c main_v0) :=
  (dat0 (F := Ideal) V c).arrAt_eq_of_cover 7 _ (fun t _ => flushed7_eq V c t) cover7

/-- After the first call, its second output array holds the end table. -/
theorem pe_final (c : Dev nD) :
    ((dat0 (F := Ideal) V c).arrAt 8 cfg0.N : Cert.Span.STok.Idx → EReal)
      = Cert.Span.tok (V c main_arg0) (V c main_arg4) (V c main_arg5) (V c main_v1) :=
  (dat0 (F := Ideal) V c).arrAt_eq_of_cover 8 _ (fun t _ => flushed8_eq V c t) cover8

end Cert.Span.Region0

end
-- ==== Proof.Region1Pay.lean ====
/-
  The arithmetic of the second call's body, read at one entry of its result block over the extended reals.

  The body builds, from each of the tile's two columns of 1024 index words, the 1024 × 512 matrix whose entry (n, l)
  is 1 when word n equals l and 0 otherwise; multiplies each into the batch's 512 × 768 per-token table (sum over the
  512 token rows, into a zero accumulator); adds the two products and the bias row. For a word below 512 exactly one
  weight of its row is 1, so the product's row n is the table's row that word names: entry (n, j) of the result is
  start[word_s n, j] + end[word_e n, j] + bias[j].
-/
import proofs.«422982_j26671746908734_3_alg».proof.Proof.Gen.KernelIdeal.Skeleton
import proofs.«422982_j26671746908734_3_alg».proof.Proof.Spec
import Idealize.ShloMosaic.Lib.Pipeline.Value
import Idealize.ShloMosaic.Lib.ValueIdx
import Idealize.ShloMosaic.Lib.ValueLayout
import Idealize.ShloMosaic.Lib.StableHlo.Predicate
import Idealize.ShloMosaic.PureOps.Ideal.Laws

noncomputable section

open scoped BigOperators
open Idealize.ShloMosaic Idealize.ShloMosaic.ValueIdx

namespace Cert.Span.Region1

open Cert.KernelIdeal Cert.KernelIdeal.Gen

/-! ## The one-hot matrix of a column of index words -/

/-- A tile's column of 1024 index words spread along the 512 token positions: entry (n, l) is word n. -/
theorem spread_apply (x : Vec Ideal S1x1024x1 .i32) (n : Fin 1024) (l : Fin 512) :
    broadcastTo S1024x512 (shapeCast S1024x1 (shapeCast S1024 x shapeCasts_S1x1024x1_S1024) shapeCasts_S1024_S1024x1)
        broadcasts_S1024x1_S1024x512 (ix2 n l)
      = x (ix3 (0 : Fin 1) n (0 : Fin 1)) := by
  refine (broadcastTo_apply _ broadcasts_S1024x1_S1024x512 (ix2 n l) (ix2 n (0 : Fin 1)) (fun a => ?_)).trans ?_
  · match a with
    | ⟨0, _⟩ => rfl
    | ⟨1, _⟩ => rfl
  refine (shapeCast_apply _ shapeCasts_S1024_S1024x1 (ix2 n (0 : Fin 1)) (ix1 n) ?_).trans ?_
  · rw [Shape.rowMajor_val_one, Shape.rowMajor_val_two]
    show n.val = n.val * 1 + 0
    omega
  refine shapeCast_apply _ shapeCasts_S1x1024x1_S1024 (ix1 n) (ix3 (0 : Fin 1) n (0 : Fin 1)) ?_
  rw [Shape.rowMajor_val_three, Shape.rowMajor_val_one]
  show (0 * 1024 + n.val) * 1 + 0 = n.val
  omega

/-- The weight the kernel gives token position l for an index word w: the truth value of w = l, as a number. -/
def weight (w : BitVec 32) (l : Fin 512) : EReal :=
  ((((IntOp.cmpi .eq w (BitVec.ofNat 32 l.val)).setWidth 32).toInt : ℝ) : EReal)

/-- The one-hot matrix of a tile's column of index words, as the kernel builds it: compare with the position
    counter, widen the bit, convert to a float. -/
def onehot (x : Vec Ideal S1x1024x1 .i32) : FVec Ideal S1024x512 .bf16 :=
  truncf .bf16 (sitofp .f32 (extui 32 (cmpi .eq
    (broadcastTo S1024x512 (shapeCast S1024x1 (shapeCast S1024 x shapeCasts_S1x1024x1_S1024) shapeCasts_S1024_S1024x1)
      broadcasts_S1024x1_S1024x512)
    (iota .tc S1024x512 32 [1] iota_S1024x512_d1_w32)) natLt_1_32)) bitsLt_bf16_f32

theorem onehot_apply (x : Vec Ideal S1x1024x1 .i32) (n : Fin 1024) (l : Fin 512) :
    onehot x (ix2 n l) = weight (x (ix3 (0 : Fin 1) n (0 : Fin 1))) l := by
  show ((((IntOp.cmpi .eq
      (broadcastTo S1024x512 (shapeCast S1024x1 (shapeCast S1024 x shapeCasts_S1x1024x1_S1024) shapeCasts_S1024_S1024x1)
        broadcasts_S1024x1_S1024x512 (ix2 n l))
      (iota .tc S1024x512 32 [1] iota_S1024x512_d1_w32 (ix2 n l))).setWidth 32).toInt : ℝ) : EReal) = _
  rw [spread_apply, iota_single_apply]
  rfl

/-- At the token an in-range index word names the weight is one, -/
theorem weight_pick {w : BitVec 32} (h : w.toNat < 512) : weight w (rowOf w) = 1 := by
  have e : BitVec.ofNat 32 (rowOf w).val = w := by
    apply BitVec.eq_of_toNat_eq
    rw [BitVec.toNat_ofNat, rowOf_val h]
    exact Nat.mod_eq_of_lt w.isLt
  unfold weight
  rw [e, StableHlo.Predicate.cmpi_eq_iff.mpr rfl]
  have : ((1#1 : BitVec 1).setWidth 32).toInt = 1 := by decide
  rw [this]
  norm_num

/-- and at every other token it is zero. -/
theorem weight_off {w : BitVec 32} (h : w.toNat < 512) {l : Fin 512} (hl : l ≠ rowOf w) : weight w l = 0 := by
  have hne : ¬ IntOp.cmpi .eq w (BitVec.ofNat 32 l.val) = 1#1 := by
    rw [StableHlo.Predicate.cmpi_eq_iff]
    intro e
    apply hl
    apply Fin.ext
    rw [rowOf_val h, e, BitVec.toNat_ofNat]
    have := l.isLt
    omega
  unfold weight
  rw [eq_zero_of_ne_one hne]
  have : ((0#1 : BitVec 1).setWidth 32).toInt = 0 := by decide
  rw [this]
  norm_num

/-! ## The product of a 1024 × 512 matrix with a 512 × 768 table, read at an entry -/

theorem lhs_gather_0 (i : S1024x768.Idx) (q : dot_S1024x512_S512x768_S1024x768_1_0_0_1_n_n.contr.Idx) :
    (dot_S1024x512_S512x768_S1024x768_1_0_0_1_n_n.lhsIdx i q 0).val = (i 0).val := by
  unfold DotDims.lhsIdx
  rw [dif_neg (show ¬(0 : Fin S1024x512.rank) ∈ dot_S1024x512_S512x768_S1024x768_1_0_0_1_n_n.lhsBatch by decide), dif_pos (show (0 : Fin S1024x512.rank) ∈ dot_S1024x512_S512x768_S1024x768_1_0_0_1_n_n.lhsNonContracting by decide)]
  rfl
theorem lhs_gather_1 (i : S1024x768.Idx) (q : dot_S1024x512_S512x768_S1024x768_1_0_0_1_n_n.contr.Idx) :
    (dot_S1024x512_S512x768_S1024x768_1_0_0_1_n_n.lhsIdx i q 1).val = (q ⟨0, by decide⟩).val :=
  dot_S1024x512_S512x768_S1024x768_1_0_0_1_n_n.lhsIdx_val_of_single rfl i q
theorem rhs_gather_0 (i : S1024x768.Idx) (q : dot_S1024x512_S512x768_S1024x768_1_0_0_1_n_n.contr.Idx) :
    (dot_S1024x512_S512x768_S1024x768_1_0_0_1_n_n.rhsIdx i q 0).val = (q ⟨0, by decide⟩).val :=
  dot_S1024x512_S512x768_S1024x768_1_0_0_1_n_n.rhsIdx_val_of_single rfl i q
theorem rhs_gather_1 (i : S1024x768.Idx) (q : dot_S1024x512_S512x768_S1024x768_1_0_0_1_n_n.contr.Idx) :
    (dot_S1024x512_S512x768_S1024x768_1_0_0_1_n_n.rhsIdx i q 1).val = (i 1).val := by
  unfold DotDims.rhsIdx
  rw [dif_neg (show ¬(1 : Fin S512x768.rank) ∈ dot_S1024x512_S512x768_S1024x768_1_0_0_1_n_n.rhsBatch by decide), dif_pos (show (1 : Fin S512x768.rank) ∈ dot_S1024x512_S512x768_S1024x768_1_0_0_1_n_n.rhsNonContracting by decide)]
  rfl

/-- Into a zero accumulator the product's entry (n, j) is the sum over the 512 token rows l of A[n, l] · T[l, j]. -/
theorem gather_matmul_apply (A : FVec Ideal S1024x512 .bf16) (T : FVec Ideal S512x768 .bf16) (n : Fin 1024) (j : Fin 768) :
    matmul dot_S1024x512_S512x768_S1024x768_1_0_0_1_n_n none A T (constant (F := Ideal) S1024x768 .f32 0x00000000#32) (ix2 n j)
      = ∑ l : Fin 512, A (ix2 n l) * T (ix2 l j) := by
  simp only [matmul]
  rw [Ideal.matmul_constant_zero_apply, ← Equiv.sum_comp (ValueIdx.contrEquiv1 dot_S1024x512_S512x768_S1024x768_1_0_0_1_n_n 512 rfl rfl).symm]
  refine Finset.sum_congr rfl fun k _ => ?_
  have hk := ValueIdx.contrEquiv1_symm_val dot_S1024x512_S512x768_S1024x768_1_0_0_1_n_n 512 rfl rfl k
  have el : dot_S1024x512_S512x768_S1024x768_1_0_0_1_n_n.lhsIdx (ix2 n j) ((ValueIdx.contrEquiv1 dot_S1024x512_S512x768_S1024x768_1_0_0_1_n_n 512 rfl rfl).symm k) = ix2 n k := funext fun a => Fin.ext (by
    match a with
    | ⟨0, _⟩ => exact lhs_gather_0 _ _
    | ⟨1, _⟩ => exact (lhs_gather_1 _ _).trans hk)
  have er : dot_S1024x512_S512x768_S1024x768_1_0_0_1_n_n.rhsIdx (ix2 n j) ((ValueIdx.contrEquiv1 dot_S1024x512_S512x768_S1024x768_1_0_0_1_n_n 512 rfl rfl).symm k) = ix2 k j := funext fun a => Fin.ext (by
    match a with
    | ⟨0, _⟩ => exact (rhs_gather_0 _ _).trans hk
    | ⟨1, _⟩ => exact rhs_gather_1 _ _)
  rw [el, er]

/-! ## The tables, the bias, and the payload at an entry -/

/-- A [1, 512, 768] block of a per-token table as the 512 × 768 matrix the product takes (the format change is the
    identity on extended reals). -/
def table (x : Vec Ideal S1x512x768 .f32) : FVec Ideal S512x768 .bf16 :=
  truncf .bf16 (shapeCast S512x768 x shapeCasts_S1x512x768_S512x768) bitsLt_bf16_f32

theorem table_apply (x : Vec Ideal S1x512x768 .f32) (l : Fin 512) (j : Fin 768) :
    table x (ix2 l j) = x (ix3 (0 : Fin 1) l j) :=
  shapeCast_1ab_ab_apply x shapeCasts_S1x512x768_S512x768 l j

/-- The bias vector laid along each of the 1024 span rows. -/
def biasRows (x : Vec Ideal S768 .f32) : FVec Ideal S1024x768 .f32 :=
  broadcastTo S1024x768 (shapeCast S1x768 x shapeCasts_S768_S1x768) broadcasts_S1x768_S1024x768

theorem biasRows_apply (x : Vec Ideal S768 .f32) (n : Fin 1024) (j : Fin 768) :
    biasRows x (ix2 n j) = x (ix1 j) :=
  (broadcastTo_1b_ab_apply _ broadcasts_S1x768_S1024x768 n j).trans
    (shapeCast_a_1a_apply x shapeCasts_S768_S1x768 (0 : Fin 1) j)

/-- The body's arithmetic, with its three kinds of operand named. -/
theorem k1_pay1_eq (x0 x1 : Vec Ideal S1x1024x1 .i32) (x2 x3 : Vec Ideal S1x512x768 .f32) (x4 : Vec Ideal S768 .f32) :
    k1_pay1 (F := Ideal) x0 x1 x2 x3 x4
      = shapeCast S1x1024x768
          (addf
            (addf
              (matmul dot_S1024x512_S512x768_S1024x768_1_0_0_1_n_n none (onehot x0) (table x2) (constant (F := Ideal) S1024x768 .f32 0x00000000#32))
              (matmul dot_S1024x512_S512x768_S1024x768_1_0_0_1_n_n none (onehot x1) (table x3) (constant (F := Ideal) S1024x768 .f32 0x00000000#32)))
            (biasRows x4))
          shapeCasts_S1024x768_S1x1024x768 := rfl

/-- The one-hot row of span n times a table picks the table's row the span's index word names:
    the weights are 1 at that row and 0 elsewhere, and 0 · x = 0, 1 · x = x for every extended real. -/
theorem pick_row (x : Vec Ideal S1x1024x1 .i32) (T : Vec Ideal S1x512x768 .f32) (n : Fin 1024) (j : Fin 768)
    (h : (x (ix3 (0 : Fin 1) n (0 : Fin 1))).toNat < 512) :
    ∑ l : Fin 512, onehot x (ix2 n l) * table T (ix2 l j)
      = T (ix3 (0 : Fin 1) (rowOf (x (ix3 (0 : Fin 1) n (0 : Fin 1)))) j) := by
  have e := onehot_pick (rowOf (x (ix3 (0 : Fin 1) n (0 : Fin 1)))) (fun l => table T (ix2 l j))
    (fun l => onehot x (ix2 n l))
    (by rw [onehot_apply]; exact weight_pick h)
    (fun l hl => by rw [onehot_apply]; exact weight_off h hl)
  exact e.trans (table_apply T _ j)

/-- THE PAYLOAD AT AN ENTRY: span n of the tile, feature j, is the start table's row named by the span's start word
    plus the end table's row named by its end word plus the bias, when both words are below 512. -/
theorem k1_pay1_apply (x0 x1 : Vec Ideal S1x1024x1 .i32) (x2 x3 : Vec Ideal S1x512x768 .f32) (x4 : Vec Ideal S768 .f32)
    (u : Fin 1) (n : Fin 1024) (j : Fin 768)
    (h0 : (x0 (ix3 (0 : Fin 1) n (0 : Fin 1))).toNat < 512) (h1 : (x1 (ix3 (0 : Fin 1) n (0 : Fin 1))).toNat < 512) :
    k1_pay1 (F := Ideal) x0 x1 x2 x3 x4 (ix3 u n j)
      = (x2 (ix3 (0 : Fin 1) (rowOf (x0 (ix3 (0 : Fin 1) n (0 : Fin 1)))) j)
          + x3 (ix3 (0 : Fin 1) (rowOf (x1 (ix3 (0 : Fin 1) n (0 : Fin 1)))) j)) + x4 (ix1 j) := by
  rw [k1_pay1_eq]
  refine (shapeCast_ab_1ab_apply _ shapeCasts_S1024x768_S1x1024x768 u n j).trans ?_
  show (matmul dot_S1024x512_S512x768_S1024x768_1_0_0_1_n_n none (onehot x0) (table x2) (constant (F := Ideal) S1024x768 .f32 0x00000000#32) (ix2 n j)
      + matmul dot_S1024x512_S512x768_S1024x768_1_0_0_1_n_n none (onehot x1) (table x3) (constant (F := Ideal) S1024x768 .f32 0x00000000#32) (ix2 n j))
      + biasRows x4 (ix2 n j) = _
  rw [gather_matmul_apply, gather_matmul_apply, biasRows_apply, pick_row x0 x2 n j h0, pick_row x1 x3 n j h1]

end Cert.Span.Region1

end
-- ==== Proof.Region1Blocks.lean ====
/-
  Where the second call's blocks sit in its arrays. The grid is 8 batches × 6 tiles of 1024 spans, row-major: point t
  is batch t / 6 and tile t % 6. At point t the two index-word blocks are rows 1024 · (t % 6) … of the batch's two
  columns, the two table blocks are the batch's whole 512 × 768 tables, the bias block is the whole bias vector, and
  the result block is rows 1024 · (t % 6) … of the batch's 6144 × 768 result. Every entry (b, n, j) of the result
  array lies in the block of exactly the point 6 · b + n / 1024, so the 48 blocks cover the array.
-/
import proofs.«422982_j26671746908734_3_alg».proof.Proof.Gen.KernelIdeal.Frame
import proofs.«422982_j26671746908734_3_alg».proof.Proof.Spec
import Idealize.ShloMosaic.Lib.Pipeline.Value
import Idealize.ShloMosaic.Lib.ValueIdx

noncomputable section

open scoped BigOperators
open Idealize.ShloMosaic Idealize.ShloMosaic.TcCoe Idealize.SL.Sem Idealize.ShloMosaic.ValueIdx
open Idealize.ShloMosaic.Pipeline (Dat)

namespace Cert.Span.Region1

open Cert.KernelIdeal Cert.KernelIdeal.Gen

variable (V : (c : Dev nD) → (b : Ref sig .tc) → Buf (Elt Ideal) ((c : Thread nD τ).loc b))

theorem hz3 : (![0, 0, 0] : Fin 3 → Nat) = fun _ => 0 := funext fun a => by fin_cases a <;> rfl
theorem hz1 : (![0] : Fin 1 → Nat) = fun _ => 0 := funext fun a => by fin_cases a <;> rfl

/-- The grid is 8 batches by 6 tiles, row-major: point t is batch t / 6, tile t % 6. The two index columns and the
    result move with (batch, tile); the two tables with the batch alone; the bias stays. -/
theorem idx_facts : ∀ t : Fin cfg1.N,
    win1_0.index t (0 : Fin 3) = t.val / 6 ∧ win1_0.index t (1 : Fin 3) = t.val % 6 ∧ win1_0.index t (2 : Fin 3) = 0
    ∧ win1_1.index t (0 : Fin 3) = t.val / 6 ∧ win1_1.index t (1 : Fin 3) = t.val % 6 ∧ win1_1.index t (2 : Fin 3) = 0
    ∧ win1_2.index t (0 : Fin 3) = t.val / 6 ∧ win1_2.index t (1 : Fin 3) = 0 ∧ win1_2.index t (2 : Fin 3) = 0
    ∧ win1_3.index t (0 : Fin 3) = t.val / 6 ∧ win1_3.index t (1 : Fin 3) = 0 ∧ win1_3.index t (2 : Fin 3) = 0
    ∧ win1_4.index t (0 : Fin 1) = 0
    ∧ win1_5.index t (0 : Fin 3) = t.val / 6 ∧ win1_5.index t (1 : Fin 3) = t.val % 6 ∧ win1_5.index t (2 : Fin 3) = 0 :=
  (by decide +kernel : ∀ t : Fin grid1.N, _)

/-- The batch of a grid point, -/
def bOf (t : Fin cfg1.N) : Fin 8 := ⟨t.val / 6, by
  have h : t.val < cfg1.N := t.isLt
  have hN : cfg1.N = 48 := N_1
  omega⟩
/-- and span n of its tile as a span of the batch. -/
def nOf (t : Fin cfg1.N) (n : Fin 1024) : Fin 6144 := ⟨1024 * (t.val % 6) + n.val, by have := n.isLt; omega⟩

/-- The start-word block at point t is rows 1024 · tile … of the batch's column of start words. -/
theorem sblk_apply (c : Dev nD) (t : Fin cfg1.N) (n : Fin 1024) :
    (iblk1 V c 0 t : Vec Ideal S1x1024x1 .i32) (ix3 (0 : Fin 1) n (0 : Fin 1))
      = (V c main_v6 : SCol.Idx → BitVec 32) (ix3 (bOf t) (nOf t n) (0 : Fin 1)) := by
  obtain ⟨e0, e1, e2, -⟩ := idx_facts t
  unfold iblk1
  rw [View.read_apply]
  show V c main_v6 _ = V c main_v6 _
  congr 1
  funext a
  apply Fin.ext
  match a with
  | ⟨0, _⟩ => show win1_0.index t (0 : Fin 3) * 1 + 1 * 0 = t.val / 6; rw [e0]; omega
  | ⟨1, _⟩ => show win1_0.index t (1 : Fin 3) * 1024 + 1 * n.val = 1024 * (t.val % 6) + n.val; rw [e1]; omega
  | ⟨2, _⟩ => show win1_0.index t (2 : Fin 3) * 1 + 1 * 0 = 0; rw [e2]

/-- The end-word block likewise, of the column of end words. -/
theorem eblk_apply (c : Dev nD) (t : Fin cfg1.N) (n : Fin 1024) :
    (iblk1 V c 1 t : Vec Ideal S1x1024x1 .i32) (ix3 (0 : Fin 1) n (0 : Fin 1))
      = (V c main_v10 : SCol.Idx → BitVec 32) (ix3 (bOf t) (nOf t n) (0 : Fin 1)) := by
  obtain ⟨-, -, -, e0, e1, e2, -⟩ := idx_facts t
  unfold iblk1
  rw [View.read_apply]
  show V c main_v10 _ = V c main_v10 _
  congr 1
  funext a
  apply Fin.ext
  match a with
  | ⟨0, _⟩ => show win1_1.index t (0 : Fin 3) * 1 + 1 * 0 = t.val / 6; rw [e0]; omega
  | ⟨1, _⟩ => show win1_1.index t (1 : Fin 3) * 1024 + 1 * n.val = 1024 * (t.val % 6) + n.val; rw [e1]; omega
  | ⟨2, _⟩ => show win1_1.index t (2 : Fin 3) * 1 + 1 * 0 = 0; rw [e2]

/-- The start table's block at point t is the whole 512 × 768 table of the point's batch. -/
theorem psblk_apply (c : Dev nD) (t : Fin cfg1.N) (l : Fin 512) (j : Fin 768) :
    (iblk1 V c 2 t : Vec Ideal S1x512x768 .f32) (ix3 (0 : Fin 1) l j)
      = (V c main_v2_0 : STok.Idx → EReal) (ix3 (bOf t) l j) := by
  obtain ⟨-, -, -, -, -, -, e0, e1, e2, -⟩ := idx_facts t
  unfold iblk1
  rw [View.read_apply]
  show V c main_v2_0 _ = V c main_v2_0 _
  congr 1
  funext a
  apply Fin.ext
  match a with
  | ⟨0, _⟩ => show win1_2.index t (0 : Fin 3) * 1 + 1 * 0 = t.val / 6; rw [e0]; omega
  | ⟨1, _⟩ => show win1_2.index t (1 : Fin 3) * 512 + 1 * l.val = l.val; rw [e1]; omega
  | ⟨2, _⟩ => show win1_2.index t (2 : Fin 3) * 768 + 1 * j.val = j.val; rw [e2]; omega

/-- The end table's block likewise. -/
theorem peblk_apply (c : Dev nD) (t : Fin cfg1.N) (l : Fin 512) (j : Fin 768) :
    (iblk1 V c 3 t : Vec Ideal S1x512x768 .f32) (ix3 (0 : Fin 1) l j)
      = (V c main_v2_1 : STok.Idx → EReal) (ix3 (bOf t) l j) := by
  obtain ⟨-, -, -, -, -, -, -, -, -, e0, e1, e2, -⟩ := idx_facts t
  unfold iblk1
  rw [View.read_apply]
  show V c main_v2_1 _ = V c main_v2_1 _
  congr 1
  funext a
  apply Fin.ext
  match a with
  | ⟨0, _⟩ => show win1_3.index t (0 : Fin 3) * 1 + 1 * 0 = t.val / 6; rw [e0]; omega
  | ⟨1, _⟩ => show win1_3.index t (1 : Fin 3) * 512 + 1 * l.val = l.val; rw [e1]; omega
  | ⟨2, _⟩ => show win1_3.index t (2 : Fin 3) * 768 + 1 * j.val = j.val; rw [e2]; omega

/-- The bias block at every point is the whole bias vector. -/
theorem boblk_apply (c : Dev nD) (t : Fin cfg1.N) (j : Fin 768) :
    (iblk1 V c 4 t : Vec Ideal S768 .f32) (ix1 j) = (V c main_arg7 : SVec.Idx → EReal) (ix1 j) := by
  obtain ⟨-, -, -, -, -, -, -, -, -, -, -, -, e0, -⟩ := idx_facts t
  unfold iblk1
  rw [View.read_apply]
  show V c main_arg7 _ = V c main_arg7 _
  congr 1
  funext a
  apply Fin.ext
  match a with
  | ⟨0, _⟩ => show win1_4.index t (0 : Fin 1) * 768 + 1 * j.val = j.val; rw [e0]; omega

/-- Where entry (u, n, j) of the result block at point t sits in the result array: batch of t, span n of t's tile, feature j. -/
theorem oblk_emb (t : Fin cfg1.N) (u : Fin 1) (n : Fin 1024) (j : Fin 768) :
    ((cfg1.win 5).blk t).view.emb (ix3 u n j) = (ix3 (bOf t) (nOf t n) j : SSpan.Idx) := by
  obtain ⟨-, -, -, -, -, -, -, -, -, -, -, -, -, e0, e1, e2⟩ := idx_facts t
  have hu : u.val = 0 := by omega
  funext a
  apply Fin.ext
  match a with
  | ⟨0, _⟩ => show win1_5.index t (0 : Fin 3) * 1 + 1 * u.val = t.val / 6; rw [e0, hu]; omega
  | ⟨1, _⟩ => show win1_5.index t (1 : Fin 3) * 1024 + 1 * n.val = 1024 * (t.val % 6) + n.val; rw [e1]; omega
  | ⟨2, _⟩ => show win1_5.index t (2 : Fin 3) * 768 + 1 * j.val = j.val; rw [e2]; omega

/-- An index of the result array is in point t's block iff each coordinate is in the block's range on its axis. -/
theorem mem_blk (t : Fin cfg1.N) (i : SSpan.Idx) :
    i ∈ ((cfg1.win 5).blk t).view.set
      ↔ ∀ a : Fin 3, win1_5.index t a * S1x1024x768.size a ≤ (i a).val ∧ (i a).val < win1_5.index t a * S1x1024x768.size a + S1x1024x768.size a := by
  show i ∈ ((View.whole main_v11).slice (win1_5.rect t)).set ↔ _
  rw [View.set_slice_whole, Rect.mem_set_unit]
  exact Iff.rfl

/-- Every entry (b, n, j) of the result array is written by the point of batch b and tile n / 1024. -/
theorem cover (i : SSpan.Idx) : ∃ t : Fin cfg1.N, (cfg1.win 5).flush t = true ∧ i ∈ ((cfg1.win 5).blk t).view.set := by
  have h0 : (i 0).val < 8 := (i 0).isLt
  have h1 : (i 1).val < 6144 := (i 1).isLt
  have h2 : (i 2).val < 768 := (i 2).isLt
  have hN : cfg1.N = 48 := N_1
  let t : Fin cfg1.N := ⟨6 * (i 0).val + (i 1).val / 1024, by omega⟩
  have ht : t.val = 6 * (i 0).val + (i 1).val / 1024 := rfl
  obtain ⟨-, -, -, -, -, -, -, -, -, -, -, -, -, e0, e1, e2⟩ := idx_facts t
  refine ⟨t, flush1_5 t, ?_⟩
  rw [mem_blk]
  intro a
  match a with
  | ⟨0, _⟩ => show win1_5.index t (0 : Fin 3) * 1 ≤ (i 0).val ∧ (i 0).val < win1_5.index t (0 : Fin 3) * 1 + 1; rw [e0, ht]; omega
  | ⟨1, _⟩ => show win1_5.index t (1 : Fin 3) * 1024 ≤ (i 1).val ∧ (i 1).val < win1_5.index t (1 : Fin 3) * 1024 + 1024; rw [e1, ht]; omega
  | ⟨2, _⟩ => show win1_5.index t (2 : Fin 3) * 768 ≤ (i 2).val ∧ (i 2).val < win1_5.index t (2 : Fin 3) * 768 + 768; rw [e2]; omega

end Cert.Span.Region1

end
-- ==== Proof.Region1Value.lean ====
/-
  The second pallas_call, read as values over the extended reals: per batch and per tile of 1024 spans it builds the two
  one-hot matrices [idx = l] (1024 × 512) from the tile's two columns of index words, multiplies them into the batch's two
  per-token tables (picking one row each: 0 · x = 0, 1 · x = x), adds the two picks and the bias. Its output array after
  the run is the spec's `gathered` of the arrays the region is entered with, when every index word is below 512.
-/
import proofs.«422982_j26671746908734_3_alg».proof.Proof.Gen.KernelIdeal.Frame
import proofs.«422982_j26671746908734_3_alg».proof.Proof.Spec
import proofs.«422982_j26671746908734_3_alg».proof.Proof.Region1Pay
import proofs.«422982_j26671746908734_3_alg».proof.Proof.Region1Blocks
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.TcCoe Idealize.SL.Sem Idealize.ShloMosaic.ValueIdx
open Idealize.ShloMosaic.Pipeline (Dat)

namespace Cert.Span.Region1

open Cert.KernelIdeal Cert.KernelIdeal.Gen

variable (V : (c : Dev nD) → (b : Ref sig .tc) → Buf (Elt Ideal) ((c : Thread nD τ).loc b))

/-- WHAT POINT t WRITES BACK is block t of the gathered spans, when every index word is below 512. -/
theorem flushed_eq (c : Dev nD)
    (hs : ∀ i : SCol.Idx, ((V c main_v6 : SCol.Idx → BitVec 32) i).toNat < 512)
    (he : ∀ i : SCol.Idx, ((V c main_v10 : SCol.Idx → BitVec 32) i).toNat < 512) (t : Fin cfg1.N) :
    (dat1 (F := Ideal) V c).flushed 5 t
      = ((cfg1.win 5).blk t).view.read (Elt Ideal)
          (gathered (V c main_v6) (V c main_v10) (V c main_v2_0) (V c main_v2_1) (V c main_arg7)) := by
  show (cfg1.win 5).cut (grid1.coords t) ((dat1 V c).after 5 t) = _
  rw [after1_5]
  unfold out1_5
  rw [View.canon_unit_zero hz3]
  simp only [View.ld_unit_zero (S := S1x1024x1) hz3, View.ld_unit_zero (S := S1x512x768) hz3, View.ld_unit_zero (S := S768) hz1]
  refine funext fun (y : S1x1024x768.Idx) => ?_
  obtain ⟨u, n, j, rfl⟩ : ∃ (u : Fin 1) (n : Fin 1024) (j : Fin 768), y = ix3 u n j := ⟨y 0, y 1, y 2, eq_ix3 y⟩
  show k1_pay1 (F := Ideal) (iblk1 V c 0 t) (iblk1 V c 1 t) (iblk1 V c 2 t) (iblk1 V c 3 t) (iblk1 V c 4 t) (ix3 u n j)
      = gathered (V c main_v6) (V c main_v10) (V c main_v2_0) (V c main_v2_1) (V c main_arg7) (((cfg1.win 5).blk t).view.emb (ix3 u n j))
  rw [oblk_emb, gathered_apply]
  refine (k1_pay1_apply (iblk1 V c 0 t) (iblk1 V c 1 t) (iblk1 V c 2 t) (iblk1 V c 3 t) (iblk1 V c 4 t) u n j
    (by rw [sblk_apply]; exact hs _) (by rw [eblk_apply]; exact he _)).trans ?_
  rw [sblk_apply, eblk_apply, psblk_apply, peblk_apply, boblk_apply]

/-- After the second call its output array holds the gathered spans, when the index words it is entered with are in range. -/
theorem out_final (c : Dev nD)
    (hs : ∀ i : Cert.Span.SCol.Idx, ((V c main_v6 : Cert.Span.SCol.Idx → BitVec 32) i).toNat < 512)
    (he : ∀ i : Cert.Span.SCol.Idx, ((V c main_v10 : Cert.Span.SCol.Idx → BitVec 32) i).toNat < 512) :
    ((dat1 (F := Ideal) V c).arrAt 5 cfg1.N : Cert.Span.SSpan.Idx → EReal)
      = Cert.Span.gathered (V c main_v6) (V c main_v10) (V c main_v2_0) (V c main_v2_1) (V c main_arg7) :=
  (dat1 (F := Ideal) V c).arrAt_eq_of_cover 5
    (gathered (V c main_v6) (V c main_v10) (V c main_v2_0) (V c main_v2_1) (V c main_arg7))
    (fun t _ => flushed_eq V c hs he t) cover

end Cert.Span.Region1

end
-- ==== Proof.Glue.lean ====
/-
  The host operations around the two pallas_calls, read as values: the output matrix is cut into its top and bottom
  halves before the first call; between the calls each column of the index pairs is clamped into [0, 511] (the identity on
  a word already below 512) and reshaped; after the second call the span axis is laid out as [512, 12]. No host operation
  and no call writes an argument array, and nothing between the calls writes the first call's two output arrays.
-/
import proofs.«422982_j26671746908734_3_alg».proof.Proof.Gen.KernelIdeal.Frame
import proofs.«422982_j26671746908734_3_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.Lib.StableHlo.Predicate

noncomputable section

open scoped BigOperators
open Idealize.ShloMosaic Idealize.ShloMosaic.TcCoe Idealize.SL.Sem Idealize.ShloMosaic.ValueIdx
open Idealize.ShloMosaic.Pipeline (Dat)

namespace Cert.Span.Glue

open Cert.KernelIdeal Cert.KernelIdeal.Gen

variable (m : (ℓ : Loc nD τ sig) → Buf (Elt Ideal) ℓ) (ρ : Dev nD → PrngReg)

/-! ## Tools: a stretch of host operations read at one buffer, over any contents `V` at its head -/

/-- Closes `StableHlo.after ops V (Proc.devRef .tc r) = V (Proc.devRef .tc r)` for one of @main's stretches and a
    reference none of its operations writes. -/
local macro "not_written" : tactic => `(tactic| (
  refine StableHlo.after_of_forall_not_mem _ _ (List.forall_iff_forall_mem.mp ?_)
  simp only [hostOps0, hostOps1, hostOps1_1, hostOps1_2, hostOps1_3, hostOps1_4, hostOps2, List.Forall,
    StableHlo.nullary_writes, StableHlo.unary_writes, StableHlo.binary_writes, StableHlo.reshape_writes, Finset.mem_singleton]
  repeat' apply And.intro
  all_goals exact StableHlo.devRef_ne_of_ne (by decide)))

section Stretches

variable (V : Valuation τ sig (Elt Ideal))

theorem ops0_v0 : StableHlo.after hostOps0 V (Proc.devRef .tc main_v0)
    = extractStridedSlice S768x768 ![0, 0] (V (Proc.devRef .tc main_arg6)) slices_S1536x768_S768x768_0_0 := by
  after_results
theorem ops0_v1 : StableHlo.after hostOps0 V (Proc.devRef .tc main_v1)
    = extractStridedSlice S768x768 ![768, 0] (V (Proc.devRef .tc main_arg6)) slices_S1536x768_S768x768_768_0 := by
  after_results

theorem ops1_v4 : StableHlo.after hostOps1 V (Proc.devRef .tc main_v4)
    = shapeCast S8x6144 (extractStridedSlice S8x6144x1 ![0, 0, 0] (V (Proc.devRef .tc main_arg1)) slices_S8x6144x2_S8x6144x1_0_0_0) shapeCasts_S8x6144x1_S8x6144 := by
  after_results
  try rfl
theorem ops1_c : StableHlo.after hostOps1 V (Proc.devRef .tc main_c) = constantI S_ 32 0#32 := by
  after_results
  try rfl
theorem ops1_c_0 : StableHlo.after hostOps1 V (Proc.devRef .tc main_c_0) = constantI S_ 32 511#32 := by
  after_results
  try rfl

/-- The outlined clip: min (511, max (0, x)), elementwise. -/
theorem ops1_1_v5 : StableHlo.after hostOps1_1 V (Proc.devRef .tc main_v5)
    = minsi (broadcastInDim S8x6144 ![] bcast_S_S8x6144 (V (Proc.devRef .tc main_c_0)))
        (maxsi (broadcastInDim S8x6144 ![] bcast_S_S8x6144 (V (Proc.devRef .tc main_c))) (V (Proc.devRef .tc main_v4))) := by
  after_results
  try rfl

theorem ops1_2_v6 : StableHlo.after hostOps1_2 V (Proc.devRef .tc main_v6)
    = shapeCast S8x6144x1 (V (Proc.devRef .tc main_v5)) shapeCasts_S8x6144_S8x6144x1 := by
  after_results
  try rfl
theorem ops1_2_v8 : StableHlo.after hostOps1_2 V (Proc.devRef .tc main_v8)
    = shapeCast S8x6144 (extractStridedSlice S8x6144x1 ![0, 0, 1] (V (Proc.devRef .tc main_arg1)) slices_S8x6144x2_S8x6144x1_0_0_1) shapeCasts_S8x6144x1_S8x6144 := by
  after_results
  try rfl
theorem ops1_2_c_1 : StableHlo.after hostOps1_2 V (Proc.devRef .tc main_c_1) = constantI S_ 32 0#32 := by
  after_results
  try rfl
theorem ops1_2_c_2 : StableHlo.after hostOps1_2 V (Proc.devRef .tc main_c_2) = constantI S_ 32 511#32 := by
  after_results
  try rfl

theorem ops1_3_v9 : StableHlo.after hostOps1_3 V (Proc.devRef .tc main_v9)
    = minsi (broadcastInDim S8x6144 ![] bcast_S_S8x6144 (V (Proc.devRef .tc main_c_2)))
        (maxsi (broadcastInDim S8x6144 ![] bcast_S_S8x6144 (V (Proc.devRef .tc main_c_1))) (V (Proc.devRef .tc main_v8))) := by
  after_results
  try rfl

theorem ops1_4_v10 : StableHlo.after hostOps1_4 V (Proc.devRef .tc main_v10)
    = shapeCast S8x6144x1 (V (Proc.devRef .tc main_v9)) shapeCasts_S8x6144_S8x6144x1 := by
  after_results
  try rfl

theorem ops2_v12 : StableHlo.after hostOps2 V (Proc.devRef .tc main_v12)
    = shapeCast S8x512x12x768 (V (Proc.devRef .tc main_v11)) shapeCasts_S8x6144x768_S8x512x12x768 := by
  after_results
  try rfl

end Stretches

/-! ## The clamp on words already in range -/

/-- min (511, max (0, w)), signed, is w for a word below 512: such a word is non-negative and at most 511 read signed. -/
theorem clip_id (w : BitVec 32) (h : w.toNat < 512) : IntOp.minsi 511#32 (IntOp.maxsi 0#32 w) = w := by
  have hi : w.toInt = (w.toNat : Int) := StableHlo.Predicate.toInt_eq_toNat_of_lt (by omega)
  have z0 : (0#32 : BitVec 32).toInt = 0 := by decide
  have z1 : (511#32 : BitVec 32).toInt = 511 := by decide
  have h0 : ¬ (w.slt 0#32 = true) := by rw [BitVec.slt_iff_toInt_lt, hi, z0]; omega
  have h1 : ¬ ((511#32 : BitVec 32).slt w = true) := by rw [BitVec.slt_iff_toInt_lt, hi, z1]; omega
  have e : IntOp.maxsi 0#32 w = w := by unfold IntOp.maxsi; rw [if_neg h0]
  rw [e]; unfold IntOp.minsi; rw [if_neg h1]

/-- One [8, 6144, 1] column of index words as @main clamps it: laid out as [8, 6144], min (511, max (0, ·)) elementwise
    against the two broadcast constants, laid out as [8, 6144, 1] again. -/
def clipCol (col : IVec S8x6144x1 32) : IVec S8x6144x1 32 :=
  shapeCast S8x6144x1
    (minsi (broadcastInDim S8x6144 ![] bcast_S_S8x6144 (constantI S_ 32 511#32))
      (maxsi (broadcastInDim S8x6144 ![] bcast_S_S8x6144 (constantI S_ 32 0#32)) (shapeCast S8x6144 col shapeCasts_S8x6144x1_S8x6144)))
    shapeCasts_S8x6144_S8x6144x1

/-- Both reshapes keep the row-major position (b · 6144 + n), the broadcasts read their constants, and the clamp is
    the identity on a word below 512. -/
theorem clipCol_apply (col : IVec S8x6144x1 32) (b : Fin 8) (n : Fin 6144) (h : (col (ix3 b n (0 : Fin 1))).toNat < 512) :
    clipCol col (ix3 b n (0 : Fin 1)) = col (ix3 b n (0 : Fin 1)) := by
  unfold clipCol
  rw [shapeCast_apply _ shapeCasts_S8x6144_S8x6144x1 (ix3 b n (0 : Fin 1)) (ix2 b n) (by
    rw [Shape.rowMajor_val_two, Shape.rowMajor_val_three]
    show b.val * 6144 + n.val = (b.val * 6144 + n.val) * 1 + 0
    omega)]
  show IntOp.minsi 511#32 (IntOp.maxsi 0#32 (shapeCast S8x6144 col shapeCasts_S8x6144x1_S8x6144 (ix2 b n))) = _
  rw [shapeCast_apply col shapeCasts_S8x6144x1_S8x6144 (ix2 b n) (ix3 b n (0 : Fin 1)) (by
    rw [Shape.rowMajor_val_two, Shape.rowMajor_val_three]
    show (b.val * 6144 + n.val) * 1 + 0 = b.val * 6144 + n.val
    omega)]
  exact clip_id _ h

/-! ## What the first call is entered with -/

theorem V1_arg0 (c : Dev nD) : V1 m ρ c main_arg0 = m ((c : Thread nD τ).loc main_arg0) :=
  (by not_written : StableHlo.after hostOps0 (W0 m ρ c) (Proc.devRef .tc main_arg0) = W0 m ρ c (Proc.devRef .tc main_arg0)).trans rfl
theorem V1_arg2 (c : Dev nD) : V1 m ρ c main_arg2 = m ((c : Thread nD τ).loc main_arg2) :=
  (by not_written : StableHlo.after hostOps0 (W0 m ρ c) (Proc.devRef .tc main_arg2) = W0 m ρ c (Proc.devRef .tc main_arg2)).trans rfl
theorem V1_arg3 (c : Dev nD) : V1 m ρ c main_arg3 = m ((c : Thread nD τ).loc main_arg3) :=
  (by not_written : StableHlo.after hostOps0 (W0 m ρ c) (Proc.devRef .tc main_arg3) = W0 m ρ c (Proc.devRef .tc main_arg3)).trans rfl
theorem V1_arg4 (c : Dev nD) : V1 m ρ c main_arg4 = m ((c : Thread nD τ).loc main_arg4) :=
  (by not_written : StableHlo.after hostOps0 (W0 m ρ c) (Proc.devRef .tc main_arg4) = W0 m ρ c (Proc.devRef .tc main_arg4)).trans rfl
theorem V1_arg5 (c : Dev nD) : V1 m ρ c main_arg5 = m ((c : Thread nD τ).loc main_arg5) :=
  (by not_written : StableHlo.after hostOps0 (W0 m ρ c) (Proc.devRef .tc main_arg5) = W0 m ρ c (Proc.devRef .tc main_arg5)).trans rfl

/-- The first call's sixth operand is the top half of the output matrix. -/
theorem V1_v0 (c : Dev nD) :
    (V1 m ρ c main_v0 : Cert.Span.SSq.Idx → EReal) = Cert.Span.topHalf (m ((c : Thread nD τ).loc main_arg6)) := by
  show StableHlo.after hostOps0 (W0 m ρ c) (Proc.devRef .tc main_v0) = _
  rw [ops0_v0]
  funext i
  -- the slice at offset (0, 0) reads row i₀, column i₁
  exact extractStridedSlice_apply ![0, 0] (W0 m ρ c (Proc.devRef .tc main_arg6)) slices_S1536x768_S768x768_0_0 i
    (ix2 (⟨(i 0).val, Nat.lt_trans (i 0).isLt (by decide)⟩ : Fin 1536) (⟨(i 1).val, (i 1).isLt⟩ : Fin 768))
    (fun a => match a with
      | ⟨0, _⟩ => (Nat.zero_add _).symm
      | ⟨1, _⟩ => (Nat.zero_add _).symm)

/-- The first call's seventh operand is the bottom half of the output matrix. -/
theorem V1_v1 (c : Dev nD) :
    (V1 m ρ c main_v1 : Cert.Span.SSq.Idx → EReal) = Cert.Span.botHalf (m ((c : Thread nD τ).loc main_arg6)) := by
  show StableHlo.after hostOps0 (W0 m ρ c) (Proc.devRef .tc main_v1) = _
  rw [ops0_v1]
  funext i
  -- the slice at offset (768, 0) reads row 768 + i₀, column i₁
  exact extractStridedSlice_apply ![768, 0] (W0 m ρ c (Proc.devRef .tc main_arg6)) slices_S1536x768_S768x768_768_0 i
    (ix2 (⟨768 + (i 0).val, by have h0 : (i 0).val < 768 := (i 0).isLt; show 768 + (i 0).val < 1536; omega⟩ : Fin 1536) (⟨(i 1).val, (i 1).isLt⟩ : Fin 768))
    (fun a => match a with
      | ⟨0, _⟩ => rfl
      | ⟨1, _⟩ => (Nat.zero_add _).symm)

/-! ## What the second call is entered with -/

/-- The index argument through the first call and the first two stretches after it. -/
theorem W2_arg1 (c : Dev nD) : W2 m ρ c (Proc.devRef .tc main_arg1) = m ((c : Thread nD τ).loc main_arg1) :=
  (W2_of_ne m ρ c main_arg1 (by decide)).trans
    ((by not_written : StableHlo.after hostOps0 (W0 m ρ c) (Proc.devRef .tc main_arg1) = W0 m ρ c (Proc.devRef .tc main_arg1)).trans rfl)
theorem W4_arg1 (c : Dev nD) : W4 m ρ c (Proc.devRef .tc main_arg1) = m ((c : Thread nD τ).loc main_arg1) :=
  calc W4 m ρ c (Proc.devRef .tc main_arg1)
    _ = W3 m ρ c (Proc.devRef .tc main_arg1) := by not_written
    _ = W2 m ρ c (Proc.devRef .tc main_arg1) := by not_written
    _ = _ := W2_arg1 m ρ c

/-- Column 0 (the span starts) and column 1 (the span ends) of the index pairs. -/
abbrev col0 (c : Dev nD) : IVec S8x6144x1 32 :=
  extractStridedSlice S8x6144x1 ![0, 0, 0] (m ((c : Thread nD τ).loc main_arg1) : Cert.Span.SPair.Idx → BitVec 32) slices_S8x6144x2_S8x6144x1_0_0_0
abbrev col1 (c : Dev nD) : IVec S8x6144x1 32 :=
  extractStridedSlice S8x6144x1 ![0, 0, 1] (m ((c : Thread nD τ).loc main_arg1) : Cert.Span.SPair.Idx → BitVec 32) slices_S8x6144x2_S8x6144x1_0_0_1

theorem col0_apply (c : Dev nD) (b : Fin 8) (n : Fin 6144) :
    col0 m c (ix3 b n (0 : Fin 1)) = (m ((c : Thread nD τ).loc main_arg1) : Cert.Span.SPair.Idx → BitVec 32) (ix3 b n (0 : Fin 2)) :=
  extractStridedSlice_apply ![0, 0, 0] _ slices_S8x6144x2_S8x6144x1_0_0_0 (ix3 b n (0 : Fin 1)) (ix3 b n (0 : Fin 2))
    (fun a => match a with
      | ⟨0, _⟩ => (Nat.zero_add _).symm
      | ⟨1, _⟩ => (Nat.zero_add _).symm
      | ⟨2, _⟩ => rfl)
theorem col1_apply (c : Dev nD) (b : Fin 8) (n : Fin 6144) :
    col1 m c (ix3 b n (0 : Fin 1)) = (m ((c : Thread nD τ).loc main_arg1) : Cert.Span.SPair.Idx → BitVec 32) (ix3 b n (1 : Fin 2)) :=
  extractStridedSlice_apply ![0, 0, 1] _ slices_S8x6144x2_S8x6144x1_0_0_1 (ix3 b n (0 : Fin 1)) (ix3 b n (1 : Fin 2))
    (fun a => match a with
      | ⟨0, _⟩ => (Nat.zero_add _).symm
      | ⟨1, _⟩ => (Nat.zero_add _).symm
      | ⟨2, _⟩ => rfl)

/-- The start column as the second call reads it: column 0 of the pairs, clamped. -/
theorem V7_v6_eq (c : Dev nD) : V7 m ρ c main_v6 = clipCol (col0 m c) := by
  have e3c : W3 m ρ c (Proc.devRef .tc main_c) = constantI S_ 32 0#32 := ops1_c _
  have e3c0 : W3 m ρ c (Proc.devRef .tc main_c_0) = constantI S_ 32 511#32 := ops1_c_0 _
  have e3v4 : W3 m ρ c (Proc.devRef .tc main_v4) = shapeCast S8x6144 (col0 m c) shapeCasts_S8x6144x1_S8x6144 := by
    show StableHlo.after hostOps1 (W2 m ρ c) (Proc.devRef .tc main_v4) = _
    rw [ops1_v4, W2_arg1]
  have e4 : W4 m ρ c (Proc.devRef .tc main_v5)
      = minsi (broadcastInDim S8x6144 ![] bcast_S_S8x6144 (constantI S_ 32 511#32))
          (maxsi (broadcastInDim S8x6144 ![] bcast_S_S8x6144 (constantI S_ 32 0#32)) (shapeCast S8x6144 (col0 m c) shapeCasts_S8x6144x1_S8x6144)) := by
    show StableHlo.after hostOps1_1 (W3 m ρ c) (Proc.devRef .tc main_v5) = _
    rw [ops1_1_v5, e3c, e3c0, e3v4]
  calc W7 m ρ c (Proc.devRef .tc main_v6)
    _ = W6 m ρ c (Proc.devRef .tc main_v6) := by not_written
    _ = W5 m ρ c (Proc.devRef .tc main_v6) := by not_written
    _ = shapeCast S8x6144x1 (W4 m ρ c (Proc.devRef .tc main_v5)) shapeCasts_S8x6144_S8x6144x1 := ops1_2_v6 _
    _ = clipCol (col0 m c) := by rw [e4]; rfl

/-- The end column as the second call reads it: column 1 of the pairs, clamped. -/
theorem V7_v10_eq (c : Dev nD) : V7 m ρ c main_v10 = clipCol (col1 m c) := by
  have e5c : W5 m ρ c (Proc.devRef .tc main_c_1) = constantI S_ 32 0#32 := ops1_2_c_1 _
  have e5c0 : W5 m ρ c (Proc.devRef .tc main_c_2) = constantI S_ 32 511#32 := ops1_2_c_2 _
  have e5v8 : W5 m ρ c (Proc.devRef .tc main_v8) = shapeCast S8x6144 (col1 m c) shapeCasts_S8x6144x1_S8x6144 := by
    show StableHlo.after hostOps1_2 (W4 m ρ c) (Proc.devRef .tc main_v8) = _
    rw [ops1_2_v8, W4_arg1]
  have e6 : W6 m ρ c (Proc.devRef .tc main_v9)
      = minsi (broadcastInDim S8x6144 ![] bcast_S_S8x6144 (constantI S_ 32 511#32))
          (maxsi (broadcastInDim S8x6144 ![] bcast_S_S8x6144 (constantI S_ 32 0#32)) (shapeCast S8x6144 (col1 m c) shapeCasts_S8x6144x1_S8x6144)) := by
    show StableHlo.after hostOps1_3 (W5 m ρ c) (Proc.devRef .tc main_v9) = _
    rw [ops1_3_v9, e5c, e5c0, e5v8]
  calc W7 m ρ c (Proc.devRef .tc main_v10)
    _ = shapeCast S8x6144x1 (W6 m ρ c (Proc.devRef .tc main_v9)) shapeCasts_S8x6144_S8x6144x1 := ops1_4_v10 _
    _ = clipCol (col1 m c) := by rw [e6]; rfl

/-- The start column: clamping is the identity on words already in range. -/
theorem V7_v6_apply (c : Dev nD) (hidx : ∀ i : Cert.Span.SPair.Idx, ((m ((c : Thread nD τ).loc main_arg1) : Cert.Span.SPair.Idx → BitVec 32) i).toNat < 512)
    (b : Fin 8) (n : Fin 6144) :
    (V7 m ρ c main_v6 : Cert.Span.SCol.Idx → BitVec 32) (ix3 b n (0 : Fin 1))
      = (m ((c : Thread nD τ).loc main_arg1) : Cert.Span.SPair.Idx → BitVec 32) (ix3 b n (0 : Fin 2)) := by
  rw [V7_v6_eq, clipCol_apply _ b n (by rw [col0_apply]; exact hidx _), col0_apply]

/-- The end column. -/
theorem V7_v10_apply (c : Dev nD) (hidx : ∀ i : Cert.Span.SPair.Idx, ((m ((c : Thread nD τ).loc main_arg1) : Cert.Span.SPair.Idx → BitVec 32) i).toNat < 512)
    (b : Fin 8) (n : Fin 6144) :
    (V7 m ρ c main_v10 : Cert.Span.SCol.Idx → BitVec 32) (ix3 b n (0 : Fin 1))
      = (m ((c : Thread nD τ).loc main_arg1) : Cert.Span.SPair.Idx → BitVec 32) (ix3 b n (1 : Fin 2)) := by
  rw [V7_v10_eq, clipCol_apply _ b n (by rw [col1_apply]; exact hidx _), col1_apply]

/-- The second call reads the first call's two output arrays as that call left them. -/
theorem V7_v2_0 (c : Dev nD) : V7 m ρ c main_v2_0 = (dat0 (V1 m ρ) c).arrAt 7 cfg0.N :=
  calc W7 m ρ c (Proc.devRef .tc main_v2_0)
    _ = W6 m ρ c (Proc.devRef .tc main_v2_0) := by not_written
    _ = W5 m ρ c (Proc.devRef .tc main_v2_0) := by not_written
    _ = W4 m ρ c (Proc.devRef .tc main_v2_0) := by not_written
    _ = W3 m ρ c (Proc.devRef .tc main_v2_0) := by not_written
    _ = W2 m ρ c (Proc.devRef .tc main_v2_0) := by not_written
    _ = (dat0 (V1 m ρ) c).arrAt 7 cfg0.N := W2_arr m ρ c 7
theorem V7_v2_1 (c : Dev nD) : V7 m ρ c main_v2_1 = (dat0 (V1 m ρ) c).arrAt 8 cfg0.N :=
  calc W7 m ρ c (Proc.devRef .tc main_v2_1)
    _ = W6 m ρ c (Proc.devRef .tc main_v2_1) := by not_written
    _ = W5 m ρ c (Proc.devRef .tc main_v2_1) := by not_written
    _ = W4 m ρ c (Proc.devRef .tc main_v2_1) := by not_written
    _ = W3 m ρ c (Proc.devRef .tc main_v2_1) := by not_written
    _ = W2 m ρ c (Proc.devRef .tc main_v2_1) := by not_written
    _ = (dat0 (V1 m ρ) c).arrAt 8 cfg0.N := W2_arr m ρ c 8
theorem V7_arg7 (c : Dev nD) : V7 m ρ c main_arg7 = m ((c : Thread nD τ).loc main_arg7) :=
  calc W7 m ρ c (Proc.devRef .tc main_arg7)
    _ = W6 m ρ c (Proc.devRef .tc main_arg7) := by not_written
    _ = W5 m ρ c (Proc.devRef .tc main_arg7) := by not_written
    _ = W4 m ρ c (Proc.devRef .tc main_arg7) := by not_written
    _ = W3 m ρ c (Proc.devRef .tc main_arg7) := by not_written
    _ = W2 m ρ c (Proc.devRef .tc main_arg7) := by not_written
    _ = W1 m ρ c (Proc.devRef .tc main_arg7) := W2_of_ne m ρ c main_arg7 (by decide)
    _ = W0 m ρ c (Proc.devRef .tc main_arg7) := by not_written
    _ = m ((c : Thread nD τ).loc main_arg7) := rfl

/-! ## The result -/

/-- The result array is the second call's output with its span axis n = 12 · l + k laid out as [512, 12]. -/
theorem W9_v12_apply (c : Dev nD) (b : Fin 8) (l : Fin 512) (k : Fin 12) (j : Fin 768) :
    (W9 m ρ c (Proc.devRef .tc main_v12) : Cert.Span.SOut.Idx → EReal) (ix4 b l k j)
      = ((dat1 (V7 m ρ) c).arrAt 5 cfg1.N : Cert.Span.SSpan.Idx → EReal)
          (ix3 b (⟨12 * l.val + k.val, by have := l.isLt; have := k.isLt; omega⟩ : Fin 6144) j) := by
  have e : W9 m ρ c (Proc.devRef .tc main_v12)
      = shapeCast S8x512x12x768 ((dat1 (V7 m ρ) c).arrAt 5 cfg1.N : Cert.Span.SSpan.Idx → EReal) shapeCasts_S8x6144x768_S8x512x12x768 :=
    (ops2_v12 (W8 m ρ c)).trans (congrArg (fun x => shapeCast S8x512x12x768 x shapeCasts_S8x6144x768_S8x512x12x768) (W8_arr m ρ c 5))
  rw [e]
  -- row-major: ((b · 512 + l) · 12 + k) · 768 + j = (b · 6144 + (12 · l + k)) · 768 + j
  exact shapeCast_apply _ shapeCasts_S8x6144x768_S8x512x12x768 (ix4 b l k j)
    (ix3 b (⟨12 * l.val + k.val, by have := l.isLt; have := k.isLt; omega⟩ : Fin 6144) j) (by
      rw [Shape.rowMajor_val_three, Shape.rowMajor_val_four]
      show (b.val * 6144 + (12 * l.val + k.val)) * 768 + j.val = ((b.val * 512 + l.val) * 12 + k.val) * 768 + j.val
      omega)

end Cert.Span.Glue

end
-- ==== Proof.KernelValue.lean ====
/-
  The kernel program's result array as one function of its eight arguments: the second call's gathered spans over the
  first call's two per-token tables, read through the host operations around the two calls. On index words in [0, 512)
  it is the spec's `result`.
-/
import proofs.«422982_j26671746908734_3_alg».proof.Proof.Region0Value
import proofs.«422982_j26671746908734_3_alg».proof.Proof.Region1Value
import proofs.«422982_j26671746908734_3_alg».proof.Proof.Glue
import proofs.«422982_j26671746908734_3_alg».proof.Proof.KernelRun

noncomputable section

open scoped BigOperators
open Idealize.ShloMosaic Idealize.ShloMosaic.TcCoe Idealize.SL.Sem Idealize.ShloMosaic.ValueIdx
open Idealize.ShloMosaic.Pipeline (Dat)

namespace Cert.Span.Kernel

open Cert.KernelIdeal Cert.KernelIdeal.Gen

variable (m : (ℓ : Loc nD τ sig) → Buf (Elt Ideal) ℓ) (ρ : Dev nD → PrngReg)

/-- The last boundary's contents at the result array, on index words in range. -/
theorem result_eq (c : Dev nD)
    (hidx : ∀ i : Cert.Span.SPair.Idx, ((m ((c : Thread nD τ).loc main_arg1) : Cert.Span.SPair.Idx → BitVec 32) i).toNat < 512) :
    (W9 m ρ c (Proc.devRef .tc main_v12) : Cert.Span.SOut.Idx → EReal)
      = Cert.Span.result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) := by
  funext i
  obtain ⟨b, l, k, j, rfl⟩ : ∃ (b : Fin 8) (l : Fin 512) (k : Fin 12) (j : Fin 768), i = ix4 b l k j := ⟨i 0, i 1, i 2, i 3, eq_ix4 i⟩
  rw [Cert.Span.Glue.W9_v12_apply m ρ c b l k j]
  have hs : ∀ i : Cert.Span.SCol.Idx, ((V7 m ρ c main_v6 : Cert.Span.SCol.Idx → BitVec 32) i).toNat < 512 := fun i => by
    obtain ⟨b', n', z, rfl⟩ : ∃ (b' : Fin 8) (n' : Fin 6144) (z : Fin 1), i = ix3 b' n' z := ⟨i 0, i 1, i 2, eq_ix3 i⟩
    obtain rfl : z = 0 := Subsingleton.elim _ _
    rw [Cert.Span.Glue.V7_v6_apply m ρ c hidx b' n']
    exact hidx _
  have he : ∀ i : Cert.Span.SCol.Idx, ((V7 m ρ c main_v10 : Cert.Span.SCol.Idx → BitVec 32) i).toNat < 512 := fun i => by
    obtain ⟨b', n', z, rfl⟩ : ∃ (b' : Fin 8) (n' : Fin 6144) (z : Fin 1), i = ix3 b' n' z := ⟨i 0, i 1, i 2, eq_ix3 i⟩
    obtain rfl : z = 0 := Subsingleton.elim _ _
    rw [Cert.Span.Glue.V7_v10_apply m ρ c hidx b' n']
    exact hidx _
  rw [Cert.Span.Region1.out_final (V7 m ρ) c hs he, Cert.Span.gathered_apply]
  rw [Cert.Span.Glue.V7_v6_apply m ρ c hidx, Cert.Span.Glue.V7_v10_apply m ρ c hidx,
    Cert.Span.Glue.V7_v2_0 m ρ c, Cert.Span.Glue.V7_v2_1 m ρ c, Cert.Span.Glue.V7_arg7 m ρ c,
    Cert.Span.Region0.ps_final (V1 m ρ) c, Cert.Span.Region0.pe_final (V1 m ρ) c,
    Cert.Span.Glue.V1_arg0 m ρ c, Cert.Span.Glue.V1_arg2 m ρ c, Cert.Span.Glue.V1_arg3 m ρ c, Cert.Span.Glue.V1_arg4 m ρ c,
    Cert.Span.Glue.V1_arg5 m ρ c, Cert.Span.Glue.V1_v0 m ρ c, Cert.Span.Glue.V1_v1 m ρ c]
  rfl

end Cert.Span.Kernel

end
-- ==== Proof.RefTake.lean ====
/-
  The reference's two `take_along_axis` calls, read at an element: a linear layer over all tokens, then per span the row
  its index word names. jnp wraps a negative word by adding 512, gathers with the start index clamped, and fills with NaN
  where the wrapped word is outside [0, 511]; on a word in [0, 512) the wrap and the fill do nothing and the clamp is the
  identity, so the element is the layer's at the named token.
-/
import proofs.«422982_j26671746908734_3_alg».proof.Proof.RefRead
import proofs.«422982_j26671746908734_3_alg».proof.Proof.Spec
import Idealize.ShloMosaic.Lib.Pipeline.Value
import Idealize.ShloMosaic.Lib.ValueIdx
import Idealize.ShloMosaic.Lib.ValueLayout
import Idealize.ShloMosaic.Lib.ReduceAll
import Idealize.ShloMosaic.Lib.StableHlo.Predicate
import Idealize.ShloMosaic.PureOps.Ideal.Laws

noncomputable section

open scoped BigOperators
open Idealize.ShloMosaic Idealize.ShloMosaic.TcCoe Idealize.SL.Sem Idealize.ShloMosaic.ValueIdx

namespace Cert.Span.RefTake

open Cert.ReferenceIdeal Cert.ReferenceIdeal.Gen Cert.ReferenceIdeal.ReadP

/-! ## The gather at an element

The gather's operand [8, 512, 768] and start indices [8, 6144, 1] share the batching axis 0; operand axis 1 is collapsed
and start-indexed, axis 2 is the offset axis (a whole row of 768). So result element (b, n, f) reads the operand at
(b, s, f) with s the start index idx[b, n, 0] read signed and clamped into [0, 511]: on each operand axis the index is
start + batching coordinate + offset coordinate, two of the three being zero. -/

abbrev gd := gather_S8x512x768_S8x6144x1_S8x6144x768_2_1_0_0_1_2_11768

/-- Axis 0 (batching): the result's batch coordinate. -/
theorem gd_axis0 (idx : IVec S8x6144x1 32) (b : Fin 8) (n : Fin 6144) (f : Fin 768) :
    gd.start (ix3 b n f) idx (0 : Fin 3) + gd.batchCoord (ix3 b n f) (0 : Fin 3) + gd.offCoord (ix3 b n f) (0 : Fin 3) = b.val := by
  rw [gd.start_batching _ _ _ (by decide), gd.offCoord_eq_zero _ _ (by decide)]
  simp only [Nat.add_zero, Nat.zero_add]
  rfl

/-- Axis 2 (offset): the result's feature coordinate. -/
theorem gd_axis2 (idx : IVec S8x6144x1 32) (b : Fin 8) (n : Fin 6144) (f : Fin 768) :
    gd.start (ix3 b n f) idx (2 : Fin 3) + gd.batchCoord (ix3 b n f) (2 : Fin 3) + gd.offCoord (ix3 b n f) (2 : Fin 3) = f.val := by
  rw [gd.batchCoord_eq_zero _ _ (by decide)]
  unfold GatherDims.start
  rw [dif_neg (by decide)]
  simp only [Nat.add_zero, Nat.zero_add]
  rfl

/-- Axis 1 (collapsed, start-indexed): the start index word at (b, n, 0), read signed and clamped into [0, 511]. -/
theorem gd_axis1 (idx : IVec S8x6144x1 32) (b : Fin 8) (n : Fin 6144) (f : Fin 768) :
    gd.start (ix3 b n f) idx (1 : Fin 3) + gd.batchCoord (ix3 b n f) (1 : Fin 3) + gd.offCoord (ix3 b n f) (1 : Fin 3)
      = min (idx (ix3 b n (0 : Fin 1))).toInt.toNat 511 := by
  rw [gd.batchCoord_eq_zero _ _ (by decide), gd.offCoord_eq_zero _ _ (by decide)]
  simp only [Nat.add_zero]
  unfold GatherDims.start
  rw [dif_pos (by decide)]
  have hsi : gd.siIdx (ix3 b n f) ⟨List.idxOf (1 : Fin 3) gd.startIndexMap, List.idxOf_lt_length_iff.2 (by decide)⟩ = ix3 b n (0 : Fin 1) := by
    funext c; refine Fin.ext ?_
    match c with
    | ⟨0, _⟩ => rfl
    | ⟨1, _⟩ => rfl
    | ⟨2, _⟩ => rfl
  rw [hsi]
  rfl

/-- THE GATHER AT (b, n, f), on a start index word below 512: the operand's row that word names. -/
theorem gather_row {α : Type} (x : S8x512x768.Idx → α) (idx : IVec S8x6144x1 32) (b : Fin 8) (n : Fin 6144) (f : Fin 768)
    (hw : (idx (ix3 b n (0 : Fin 1))).toNat < 512) :
    Host.gather gd x idx (ix3 b n f) = x (ix3 b (Cert.Span.rowOf (idx (ix3 b n (0 : Fin 1)))) f) := by
  unfold Host.gather
  congr 1
  funext a
  refine Fin.ext ?_
  match a with
  | ⟨0, _⟩ => exact gd_axis0 idx b n f
  | ⟨1, _⟩ =>
    refine (gd_axis1 idx b n f).trans ?_
    show _ = (Cert.Span.rowOf (idx (ix3 b n (0 : Fin 1)))).val
    -- a word below 512 reads the same signed and unsigned, and the clamp to 511 leaves it
    rw [Cert.Span.rowOf_val hw, Idealize.ShloMosaic.StableHlo.Predicate.toInt_eq_toNat_of_lt (by omega), Int.toNat_natCast]
    exact Nat.min_eq_left (by omega)
  | ⟨2, _⟩ => exact gd_axis2 idx b n f

/-- A left fold by `and` over one-bit words that are all 1, from 1, is 1. -/
theorem foldl_andi_ones {ι : Type} (g : ι → BitVec 1) (hg : ∀ k, g k = 1#1) :
    ∀ l : List ι, l.foldl (fun r k => IntOp.andi r (g k)) 1#1 = 1#1
  | [] => rfl
  | a :: l => by
    rw [List.foldl_cons, hg a, show IntOp.andi (1#1 : BitVec 1) 1#1 = 1#1 from by decide]
    exact foldl_andi_ones g hg l

/-! ## The start side: column 0, the first call -/

/-- Column 0 of the index pairs, kept as [8, 6144, 1]: the pair's first word. -/
theorem word0 (x1 : Cert.Span.SPair.Idx → BitVec 32) (b : Fin 8) (n : Fin 6144) (c : Fin 1) :
    (val_main_v10 (F := Ideal) x1 : S8x6144x1.Idx → BitVec 32) (ix3 b n c) = x1 (ix3 b n (0 : Fin 2)) := by
  obtain rfl : c = 0 := Subsingleton.elim _ _
  rw [val_main_v10_apply, val_main_v9_apply, val_main_v8_apply]
  congr 1
  funext a; refine Fin.ext ?_
  have hb := b.isLt
  have hn := n.isLt
  match a with
  | ⟨0, _⟩ => show (b.val * 6144 + n.val) / 6144 = b.val; omega
  | ⟨1, _⟩ => show (b.val * 6144 + n.val) / 1 % 6144 = n.val; omega
  | ⟨2, _⟩ => rfl

/-- A word below 512 is not negative, so the wrap (add 512 where negative) leaves it. -/
theorem wrapped0 (x1 : Cert.Span.SPair.Idx → BitVec 32) (hidx : ∀ i : Cert.Span.SPair.Idx, (x1 i).toNat < 512)
    (b : Fin 8) (n : Fin 6144) (c : Fin 1) :
    (val_main_call0_v4 (F := Ideal) x1 : S8x6144x1.Idx → BitVec 32) (ix3 b n c) = x1 (ix3 b n (0 : Fin 2)) := by
  rw [val_main_call0_v4_apply, val_main_call0_v1_apply, val_main_call0_v0_apply, val_main_call0_c_apply, word0]
  have hw := hidx (ix3 b n (0 : Fin 2))
  have h1 : IntOp.cmpi .slt (x1 (ix3 b n (0 : Fin 2))) 0#32 = 0#1 :=
    eq_zero_of_ne_one fun h =>
      absurd ((Idealize.ShloMosaic.StableHlo.Predicate.slt_iff_toNat (by omega) (by decide)).mp h) (Nat.not_lt_zero _)
  rw [h1, select_zero]

/-- A word below 512 is inside [0, 511]: both comparisons of the range test are 1, and so is their `and`. -/
theorem inrange0 (x1 : Cert.Span.SPair.Idx → BitVec 32) (hidx : ∀ i : Cert.Span.SPair.Idx, (x1 i).toNat < 512)
    (b : Fin 8) (n : Fin 6144) (c : Fin 1) :
    (val_main_call0_v10 (F := Ideal) x1 : S8x6144x1.Idx → BitVec 1) (ix3 b n c) = 1#1 := by
  rw [val_main_call0_v10_apply, val_main_call0_v6_apply, val_main_call0_v9_apply, wrapped0 x1 hidx,
    val_main_call0_v5_apply, val_main_call0_c_2_apply, val_main_call0_v8_apply, val_main_call0_v7_apply,
    val_main_call0_c_1_apply]
  have hw := hidx (ix3 b n (0 : Fin 2))
  rw [(Idealize.ShloMosaic.StableHlo.Predicate.sge_iff_toNat (by omega) (by decide)).mpr (Nat.zero_le _),
    (Idealize.ShloMosaic.StableHlo.Predicate.sle_iff_toNat (by omega) (by decide)).mpr (show _ ≤ 511 by omega)]
  decide

/-- The reduce-and over the size-one last axis of a mask of ones is 1 everywhere. -/
theorem mask0 (x1 : Cert.Span.SPair.Idx → BitVec 32) (hidx : ∀ i : Cert.Span.SPair.Idx, (x1 i).toNat < 512)
    (j : S8x6144.Idx) : (val_main_call0_v11 (F := Ideal) x1 : S8x6144.Idx → BitVec 1) j = 1#1 := by
  unfold val_main_call0_v11
  rw [Host.reduce_eq_foldl]
  exact foldl_andi_ones _ (fun i => by rw [eq_ix3 i]; exact inrange0 x1 hidx _ _ _) _

/-- The start layer, read at a token: the sum over the 768 input features plus the bias. -/
theorem layer0 (x0 : Cert.Span.STok.Idx → EReal) (W : Cert.Span.SSq.Idx → EReal) (β : Cert.Span.SVec.Idx → EReal)
    (b : Fin 8) (l : Fin 512) (f : Fin 768) :
    (val_main_v3 (F := Ideal) x0 W β : S8x512x768.Idx → EReal) (ix3 b l f) = Cert.Span.hid x0 W β b l f := by
  rw [val_main_v3_apply, val_main_v0_apply, val_main_v2_apply, val_main_v1_apply, Ideal.addf_def]
  unfold Cert.Span.hid
  congr 1
  · refine Finset.sum_congr rfl fun k _ => ?_
    congr 2
    · funext a; refine Fin.ext ?_
      match a with
      | ⟨0, _⟩ => rfl
      | ⟨1, _⟩ => rfl
      | ⟨2, _⟩ => rfl
    · funext a; refine Fin.ext ?_
      match a with
      | ⟨0, _⟩ => rfl
      | ⟨1, _⟩ => rfl
  · congr 1
    funext a; refine Fin.ext ?_
    match a with
    | ⟨0, _⟩ => rfl

/-- The start representation of span n of batch b, feature f: the start layer at the token the span's first word names. -/
theorem start_span (x0 : Cert.Span.STok.Idx → EReal) (x1 : Cert.Span.SPair.Idx → BitVec 32) (x2 : Cert.Span.SSq.Idx → EReal)
    (x3 : Cert.Span.SVec.Idx → EReal) (hidx : ∀ i : Cert.Span.SPair.Idx, (x1 i).toNat < 512)
    (b : Fin 8) (n : Fin 6144) (f : Fin 768) :
    (val_main_v14 (F := Ideal) x0 x1 x2 x3 : Cert.Span.SSpan.Idx → EReal) (ix3 b n f)
      = Cert.Span.hid x0 x2 x3 b (Cert.Span.rowOf (x1 (ix3 b n (0 : Fin 2)))) f := by
  -- the mask is 1, so the select takes the gathered element, not the NaN fill
  rw [val_main_v14_apply, val_main_call0_v13_apply, mask0 x1 hidx, select_one]
  unfold val_main_call0_v12
  have hw : ((val_main_call0_v4 (F := Ideal) x1 : S8x6144x1.Idx → BitVec 32) (ix3 b n (0 : Fin 1))).toNat < 512 := by
    rw [wrapped0 x1 hidx]; exact hidx _
  -- the gather reads the layer at the row the (unwrapped) word names
  rw [gather_row _ _ b n f hw, wrapped0 x1 hidx, layer0]

/-! ## The end side: column 1, the second call -/

/-- Column 1 of the index pairs, kept as [8, 6144, 1]: the pair's second word. -/
theorem word1 (x1 : Cert.Span.SPair.Idx → BitVec 32) (b : Fin 8) (n : Fin 6144) (c : Fin 1) :
    (val_main_v13 (F := Ideal) x1 : S8x6144x1.Idx → BitVec 32) (ix3 b n c) = x1 (ix3 b n (1 : Fin 2)) := by
  obtain rfl : c = 0 := Subsingleton.elim _ _
  rw [val_main_v13_apply, val_main_v12_apply, val_main_v11_apply]
  congr 1
  funext a; refine Fin.ext ?_
  have hb := b.isLt
  have hn := n.isLt
  match a with
  | ⟨0, _⟩ => show (b.val * 6144 + n.val) / 6144 = b.val; omega
  | ⟨1, _⟩ => show (b.val * 6144 + n.val) / 1 % 6144 = n.val; omega
  | ⟨2, _⟩ => rfl

/-- A word below 512 is not negative, so the wrap (add 512 where negative) leaves it. -/
theorem wrapped1 (x1 : Cert.Span.SPair.Idx → BitVec 32) (hidx : ∀ i : Cert.Span.SPair.Idx, (x1 i).toNat < 512)
    (b : Fin 8) (n : Fin 6144) (c : Fin 1) :
    (val_main_call1_v4 (F := Ideal) x1 : S8x6144x1.Idx → BitVec 32) (ix3 b n c) = x1 (ix3 b n (1 : Fin 2)) := by
  rw [val_main_call1_v4_apply, val_main_call1_v1_apply, val_main_call1_v0_apply, val_main_call1_c_apply, word1]
  have hw := hidx (ix3 b n (1 : Fin 2))
  have h1 : IntOp.cmpi .slt (x1 (ix3 b n (1 : Fin 2))) 0#32 = 0#1 :=
    eq_zero_of_ne_one fun h =>
      absurd ((Idealize.ShloMosaic.StableHlo.Predicate.slt_iff_toNat (by omega) (by decide)).mp h) (Nat.not_lt_zero _)
  rw [h1, select_zero]

/-- A word below 512 is inside [0, 511]: both comparisons of the range test are 1, and so is their `and`. -/
theorem inrange1 (x1 : Cert.Span.SPair.Idx → BitVec 32) (hidx : ∀ i : Cert.Span.SPair.Idx, (x1 i).toNat < 512)
    (b : Fin 8) (n : Fin 6144) (c : Fin 1) :
    (val_main_call1_v10 (F := Ideal) x1 : S8x6144x1.Idx → BitVec 1) (ix3 b n c) = 1#1 := by
  rw [val_main_call1_v10_apply, val_main_call1_v6_apply, val_main_call1_v9_apply, wrapped1 x1 hidx,
    val_main_call1_v5_apply, val_main_call1_c_2_apply, val_main_call1_v8_apply, val_main_call1_v7_apply,
    val_main_call1_c_1_apply]
  have hw := hidx (ix3 b n (1 : Fin 2))
  rw [(Idealize.ShloMosaic.StableHlo.Predicate.sge_iff_toNat (by omega) (by decide)).mpr (Nat.zero_le _),
    (Idealize.ShloMosaic.StableHlo.Predicate.sle_iff_toNat (by omega) (by decide)).mpr (show _ ≤ 511 by omega)]
  decide

/-- The reduce-and over the size-one last axis of a mask of ones is 1 everywhere. -/
theorem mask1 (x1 : Cert.Span.SPair.Idx → BitVec 32) (hidx : ∀ i : Cert.Span.SPair.Idx, (x1 i).toNat < 512)
    (j : S8x6144.Idx) : (val_main_call1_v11 (F := Ideal) x1 : S8x6144.Idx → BitVec 1) j = 1#1 := by
  unfold val_main_call1_v11
  rw [Host.reduce_eq_foldl]
  exact foldl_andi_ones _ (fun i => by rw [eq_ix3 i]; exact inrange1 x1 hidx _ _ _) _

/-- The end layer, read at a token: the sum over the 768 input features plus the bias. -/
theorem layer1 (x0 : Cert.Span.STok.Idx → EReal) (W : Cert.Span.SSq.Idx → EReal) (β : Cert.Span.SVec.Idx → EReal)
    (b : Fin 8) (l : Fin 512) (f : Fin 768) :
    (val_main_v7 (F := Ideal) x0 W β : S8x512x768.Idx → EReal) (ix3 b l f) = Cert.Span.hid x0 W β b l f := by
  rw [val_main_v7_apply, val_main_v4_apply, val_main_v6_apply, val_main_v5_apply, Ideal.addf_def]
  unfold Cert.Span.hid
  congr 1
  · refine Finset.sum_congr rfl fun k _ => ?_
    congr 2
    · funext a; refine Fin.ext ?_
      match a with
      | ⟨0, _⟩ => rfl
      | ⟨1, _⟩ => rfl
      | ⟨2, _⟩ => rfl
    · funext a; refine Fin.ext ?_
      match a with
      | ⟨0, _⟩ => rfl
      | ⟨1, _⟩ => rfl
  · congr 1
    funext a; refine Fin.ext ?_
    match a with
    | ⟨0, _⟩ => rfl

/-- The end representation of span n of batch b, feature f: the end layer at the token the span's second word names. -/
theorem end_span (x0 : Cert.Span.STok.Idx → EReal) (x1 : Cert.Span.SPair.Idx → BitVec 32) (x4 : Cert.Span.SSq.Idx → EReal)
    (x5 : Cert.Span.SVec.Idx → EReal) (hidx : ∀ i : Cert.Span.SPair.Idx, (x1 i).toNat < 512)
    (b : Fin 8) (n : Fin 6144) (f : Fin 768) :
    (val_main_v15 (F := Ideal) x0 x1 x4 x5 : Cert.Span.SSpan.Idx → EReal) (ix3 b n f)
      = Cert.Span.hid x0 x4 x5 b (Cert.Span.rowOf (x1 (ix3 b n (1 : Fin 2)))) f := by
  -- the mask is 1, so the select takes the gathered element, not the NaN fill
  rw [val_main_v15_apply, val_main_call1_v13_apply, mask1 x1 hidx, select_one]
  unfold val_main_call1_v12
  have hw : ((val_main_call1_v4 (F := Ideal) x1 : S8x6144x1.Idx → BitVec 32) (ix3 b n (0 : Fin 1))).toNat < 512 := by
    rw [wrapped1 x1 hidx]; exact hidx _
  -- the gather reads the layer at the row the (unwrapped) word names
  rw [gather_row _ _ b n f hw, wrapped1 x1 hidx, layer1]

end Cert.Span.RefTake

end
-- ==== Proof.RefValue.lean ====
/-
  The reference, read as values over the extended reals: two linear layers over all tokens, a row of each picked per
  span by `take_along_axis` (negative words wrapped, out-of-range words filled with NaN — on index words in [0, 512) both
  steps are the identity and the gather reads the row the word names), the two picks joined along the feature axis,
  relu, one 1536 × 768 matrix product, the bias, and the span axis laid out as [512, 12]. With the joined sum split into its
  two halves (`Cert.Span.sum_halves`) this is the spec's `result`.
-/
import proofs.«422982_j26671746908734_3_alg».proof.Proof.RefRead
import proofs.«422982_j26671746908734_3_alg».proof.Proof.RefTake
import proofs.«422982_j26671746908734_3_alg».proof.Proof.Spec
import Idealize.ShloMosaic.Lib.Pipeline.Value
import Idealize.ShloMosaic.Lib.ValueIdx
import Idealize.ShloMosaic.Lib.ValueLayout
import Idealize.ShloMosaic.Lib.ReduceAll
import Idealize.ShloMosaic.Lib.StableHlo.Predicate
import Idealize.ShloMosaic.PureOps.Ideal.Laws

noncomputable section

open scoped BigOperators
open Idealize.ShloMosaic Idealize.ShloMosaic.TcCoe Idealize.SL.Sem Idealize.ShloMosaic.ValueIdx

namespace Cert.Span.Ref

open Cert.ReferenceIdeal Cert.ReferenceIdeal.Gen Cert.ReferenceIdeal.ReadP

/-! ## The joined array, and its relu, at a feature of either half -/

/-- The joined array at a feature f < 768 is the start pick at f. -/
theorem cat_left (x0 : STok.Idx → EReal) (x1 : SPair.Idx → BitVec 32) (x2 : SSq.Idx → EReal) (x3 : SVec.Idx → EReal)
    (x4 : SSq.Idx → EReal) (x5 : SVec.Idx → EReal) (b : Fin 8) (n : Fin 6144) (f : Fin 768) (hf : f.val < 1536) :
    (val_main_v16 (F := Ideal) x0 x1 x2 x3 x4 x5 : (⟨3, ![8, 6144, 1536]⟩ : Shape).Idx → EReal) (ix3 b n (⟨f.val, hf⟩ : Fin 1536))
      = (val_main_v14 (F := Ideal) x0 x1 x2 x3 : SSpan.Idx → EReal) (ix3 b n f) := by
  unfold val_main_v16
  exact concatenate_pair_apply_left (t := S8x6144x1536) (s₁ := S8x6144x768) (s₂ := S8x6144x768) (2 : Fin 3) _ _ _ _ rfl
    (ix3 b n f) (fun a => by
      match a with
      | ⟨0, _⟩ => rfl
      | ⟨1, _⟩ => rfl
      | ⟨2, _⟩ => rfl)

/-- The joined array at a feature 768 + f, f < 768, is the end pick at f. -/
theorem cat_right (x0 : STok.Idx → EReal) (x1 : SPair.Idx → BitVec 32) (x2 : SSq.Idx → EReal) (x3 : SVec.Idx → EReal)
    (x4 : SSq.Idx → EReal) (x5 : SVec.Idx → EReal) (b : Fin 8) (n : Fin 6144) (f : Fin 768) (hf : 768 + f.val < 1536) :
    (val_main_v16 (F := Ideal) x0 x1 x2 x3 x4 x5 : (⟨3, ![8, 6144, 1536]⟩ : Shape).Idx → EReal) (ix3 b n (⟨768 + f.val, hf⟩ : Fin 1536))
      = (val_main_v15 (F := Ideal) x0 x1 x4 x5 : SSpan.Idx → EReal) (ix3 b n f) := by
  unfold val_main_v16
  exact concatenate_pair_apply_right (t := S8x6144x1536) (s₁ := S8x6144x768) (s₂ := S8x6144x768) (2 : Fin 3) _ _ _ _ rfl rfl
    (ix3 b n f) (fun a ha => by
      match a with
      | ⟨0, _⟩ => rfl
      | ⟨1, _⟩ => rfl
      | ⟨2, _⟩ => exact absurd rfl ha)
    (by show f.val + 768 = 768 + f.val; omega)

/-- The relu stage at an index: the maximum of the joined array there and 0. -/
theorem relu_at (x0 : STok.Idx → EReal) (x1 : SPair.Idx → BitVec 32) (x2 : SSq.Idx → EReal) (x3 : SVec.Idx → EReal)
    (x4 : SSq.Idx → EReal) (x5 : SVec.Idx → EReal) (i : (⟨3, ![8, 6144, 1536]⟩ : Shape).Idx) :
    (val_main_v17 (F := Ideal) x0 x1 x2 x3 x4 x5 : (⟨3, ![8, 6144, 1536]⟩ : Shape).Idx → EReal) i
      = max ((val_main_v16 (F := Ideal) x0 x1 x2 x3 x4 x5 : (⟨3, ![8, 6144, 1536]⟩ : Shape).Idx → EReal) i) 0 := by
  rw [val_main_v17_apply, val_main_call2_v0_apply, val_main_call2_cst_apply]
  show max _ (Ideal.ofBits .f32 0x00000000#32) = _
  rw [Ideal.ofBits_zero_f32]

/-! ## The matrix product over the 1536 joined features, split into its halves -/

/-- The product stage at span n of batch b, column j: the start table's row at the span's first word plus the end
    table's row at its second word. -/
theorem dot_at (x0 : STok.Idx → EReal) (x1 : SPair.Idx → BitVec 32) (x2 : SSq.Idx → EReal) (x3 : SVec.Idx → EReal)
    (x4 : SSq.Idx → EReal) (x5 : SVec.Idx → EReal) (x6 : STall.Idx → EReal)
    (hidx : ∀ i : SPair.Idx, (x1 i).toNat < 512) (b : Fin 8) (n : Fin 6144) (j : Fin 768) :
    (val_main_v18 (F := Ideal) x0 x1 x2 x3 x4 x5 x6 : SSpan.Idx → EReal) (ix3 b n j)
      = tok x0 x2 x3 (topHalf x6) (ix3 b (rowOf (x1 (ix3 b n (0 : Fin 2)))) j)
        + tok x0 x4 x5 (botHalf x6) (ix3 b (rowOf (x1 (ix3 b n (1 : Fin 2)))) j) := by
  rw [val_main_v18_apply, tok_apply, tok_apply, Cert.Span.sum_halves]
  refine congrArg₂ (· + ·) ?_ ?_
  · refine Finset.sum_congr rfl fun f _ => ?_
    have hf : f.val < 1536 := Nat.lt_trans f.isLt (by decide)
    have el : lidx_main_v18 (ix3 b n j) (⟨f.val, hf⟩ : Fin 1536) = ix3 b n (⟨f.val, hf⟩ : Fin 1536) :=
      funext fun a => Fin.ext (by match a with | ⟨0, _⟩ => rfl | ⟨1, _⟩ => rfl | ⟨2, _⟩ => rfl)
    have er : ridx_main_v18 (ix3 b n j) (⟨f.val, hf⟩ : Fin 1536) = ix2 (⟨f.val, hf⟩ : Fin 1536) j :=
      funext fun a => Fin.ext (by match a with | ⟨0, _⟩ => rfl | ⟨1, _⟩ => rfl)
    rw [el, er, relu_at, cat_left, RefTake.start_span x0 x1 x2 x3 hidx, topHalf_apply]
  · refine Finset.sum_congr rfl fun f _ => ?_
    have hf : 768 + f.val < 1536 := by have := f.isLt; omega
    have el : lidx_main_v18 (ix3 b n j) (⟨768 + f.val, hf⟩ : Fin 1536) = ix3 b n (⟨768 + f.val, hf⟩ : Fin 1536) :=
      funext fun a => Fin.ext (by match a with | ⟨0, _⟩ => rfl | ⟨1, _⟩ => rfl | ⟨2, _⟩ => rfl)
    have er : ridx_main_v18 (ix3 b n j) (⟨768 + f.val, hf⟩ : Fin 1536) = ix2 (⟨768 + f.val, hf⟩ : Fin 1536) j :=
      funext fun a => Fin.ext (by match a with | ⟨0, _⟩ => rfl | ⟨1, _⟩ => rfl)
    rw [el, er, relu_at, cat_right, RefTake.end_span x0 x1 x4 x5 hidx, botHalf_apply]

/-! ## The bias, the reshape, the result -/

/-- The broadcast bias at (b, n, j) is the bias at j. -/
theorem bias_at (x7 : SVec.Idx → EReal) (b : Fin 8) (n : Fin 6144) (j : Fin 768) :
    (val_main_v20 (F := Ideal) x7 : SSpan.Idx → EReal) (ix3 b n j) = x7 (ix1 j) := by
  rw [val_main_v20_apply, val_main_v19_apply]
  have e : idx_main_v19 (idx_main_v20 (ix3 b n j)) = ix1 j :=
    funext fun a => Fin.ext (by match a with | ⟨0, _⟩ => rfl)
  rw [e]

/-- The reshape reads span 12 · l + k at (l, k): row-major order on both sides. -/
theorem idx22 (b : Fin 8) (l : Fin 512) (k : Fin 12) (j : Fin 768) (hn : 12 * l.val + k.val < 6144) :
    idx_main_v22 (ix4 b l k j) = ix3 b (⟨12 * l.val + k.val, hn⟩ : Fin 6144) j :=
  funext fun a => Fin.ext (by
    have hb := b.isLt; have hl := l.isLt; have hk := k.isLt; have hj := j.isLt
    match a with
    | ⟨0, _⟩ => show (((b.val * 512 + l.val) * 12 + k.val) * 768 + j.val) / 4718592 = b.val; omega
    | ⟨1, _⟩ => show (((b.val * 512 + l.val) * 12 + k.val) * 768 + j.val) / 768 % 6144 = 12 * l.val + k.val; omega
    | ⟨2, _⟩ => show (((b.val * 512 + l.val) * 12 + k.val) * 768 + j.val) % 768 = j.val; omega)

/-- The spec's result at (b, l, k, j), with its span n = 12 · l + k named. -/
theorem result_apply (h : STok.Idx → EReal) (idx : SPair.Idx → BitVec 32) (Ws : SSq.Idx → EReal) (bs : SVec.Idx → EReal)
    (We : SSq.Idx → EReal) (be : SVec.Idx → EReal) (Wo : STall.Idx → EReal) (bo : SVec.Idx → EReal)
    (b : Fin 8) (l : Fin 512) (k : Fin 12) (j : Fin 768) (hn : 12 * l.val + k.val < 6144) :
    result h idx Ws bs We be Wo bo (ix4 b l k j)
      = (tok h Ws bs (topHalf Wo) (ix3 b (rowOf (idx (ix3 b (⟨12 * l.val + k.val, hn⟩ : Fin 6144) (0 : Fin 2)))) j)
          + tok h We be (botHalf Wo) (ix3 b (rowOf (idx (ix3 b (⟨12 * l.val + k.val, hn⟩ : Fin 6144) (1 : Fin 2)))) j))
        + bo (ix1 j) := rfl

/-- The reference's result at (b, l, k, j) is the spec's. -/
theorem ref_at (x0 : STok.Idx → EReal) (x1 : SPair.Idx → BitVec 32) (x2 : SSq.Idx → EReal) (x3 : SVec.Idx → EReal)
    (x4 : SSq.Idx → EReal) (x5 : SVec.Idx → EReal) (x6 : STall.Idx → EReal) (x7 : SVec.Idx → EReal)
    (hidx : ∀ i : SPair.Idx, (x1 i).toNat < 512) (b : Fin 8) (l : Fin 512) (k : Fin 12) (j : Fin 768) :
    (val_main_v22 (F := Ideal) x0 x1 x2 x3 x4 x5 x6 x7 : SOut.Idx → EReal) (ix4 b l k j)
      = result x0 x1 x2 x3 x4 x5 x6 x7 (ix4 b l k j) := by
  have hn : 12 * l.val + k.val < 6144 := by have := l.isLt; have := k.isLt; omega
  rw [val_main_v22_apply, idx22 b l k j hn, val_main_v21_apply, Ideal.addf_def, dot_at x0 x1 x2 x3 x4 x5 x6 hidx,
    bias_at, result_apply x0 x1 x2 x3 x4 x5 x6 x7 b l k j hn]

/-- On index words in range the reference's result, as the stage-by-stage term of its eight arguments, is the spec's `result`. -/
theorem ref_result (x0 : Cert.Span.STok.Idx → EReal) (x1 : Cert.Span.SPair.Idx → BitVec 32) (x2 : Cert.Span.SSq.Idx → EReal)
    (x3 : Cert.Span.SVec.Idx → EReal) (x4 : Cert.Span.SSq.Idx → EReal) (x5 : Cert.Span.SVec.Idx → EReal)
    (x6 : Cert.Span.STall.Idx → EReal) (x7 : Cert.Span.SVec.Idx → EReal)
    (hidx : ∀ i : Cert.Span.SPair.Idx, (x1 i).toNat < 512) :
    (val_main_v22 (F := Ideal) x0 x1 x2 x3 x4 x5 x6 x7 : Cert.Span.SOut.Idx → EReal)
      = Cert.Span.result x0 x1 x2 x3 x4 x5 x6 x7 := by
  funext i
  rw [eq_ix4 i]
  exact ref_at x0 x1 x2 x3 x4 x5 x6 x7 hidx (i 0) (i 1) (i 2) (i 3)

end Cert.Span.Ref

end
-- ==== Proof.PreDecode.lean ====
/-
  The precondition read back at one index word. The printed predicate ends in
  jnp.all((span_idx >= 0) & (span_idx < 512)) over the i32[8, 6144, 2] argument: a reduce by `and` of the
  elementwise conjunction of two signed comparisons against broadcast scalar constants, joined by one more `and`
  to the float-finiteness conjuncts. When the predicate is 1, both halves of that last `and` are 1; a reduce
  by `and` over every axis that came out 1 met a 1 at each index; there the two comparisons say 0 ≤ w and
  w < 512 of the word w read signed, and a word in [0, 512) signed has its sign bit clear, so it is below 512
  unsigned.
-/
import proofs.«422982_j26671746908734_3_alg».proof.Defs
import proofs.«422982_j26671746908734_3_alg».proof.Proof.Gen.Pre_finite_inputs
import Idealize.ShloMosaic.Lib.Affine
import Idealize.ShloMosaic.Lib.ReduceAll
import Idealize.ShloMosaic.Lib.ValueIdx

noncomputable section

namespace Cert.Span.PreDecode

open Idealize.ShloMosaic Idealize.SL.Sem

/-- The scalar shape has one index. -/
instance scalarIdx_subsingleton : Subsingleton Cert.Pre_finite_inputs.S_.Idx :=
  ⟨fun a b => funext fun d => d.elim0⟩

/-- A 32-bit word that is at least 0 and below n when read signed (n below 2³¹) is below n when read unsigned:
    were its sign bit set, its signed value w − 2³² would be negative. -/
theorem toNat_lt_of_signed_range (w : BitVec 32) (n : Nat) (hn : n < 2 ^ 31)
    (hge : IntOp.cmpi .sge w 0#32 = 1#1) (hlt : IntOp.cmpi .slt w (BitVec.ofNat 32 n) = 1#1) : w.toNat < n := by
  have h0 : (0 : Int) ≤ w.toInt := by
    have := IntOp.cmpi_sge.1 hge
    simpa using this
  have h1 : w.toInt < (n : Int) := by
    have := IntOp.cmpi_slt.1 hlt
    have hn' : (BitVec.ofNat 32 n).toInt = (n : Int) := by
      rw [BitVec.toInt_eq_toNat_cond, BitVec.toNat_ofNat]
      have : n % 2 ^ 32 = n := Nat.mod_eq_of_lt (by omega)
      rw [this, if_pos (by omega)]
    rwa [hn'] at this
  rw [BitVec.toInt_eq_toNat_cond] at h0 h1
  have hw := w.isLt
  split at h0 <;> omega

/-- The last part of the printed predicate, read at the one index of its result: if it is 1, every word of the
    index array is below 512. Whatever the finiteness conjuncts `v` say is dropped. -/
theorem idx_lt_of_part2 {F : FTy → Type} [FloatOps F] [Cert.Pre_finite_inputs.Facts]
    (a1 : IVec Cert.Pre_finite_inputs.S8x6144x2 32) (v : IVec Cert.Pre_finite_inputs.S_ 1)
    (h : Cert.Pre_finite_inputs.fn_part2 (F := F) a1 v ValueIdx.ix0 = 1#1)
    (i : Cert.Pre_finite_inputs.S8x6144x2.Idx) : (a1 i).toNat < 512 := by
  unfold Cert.Pre_finite_inputs.fn_part2 at h
  -- the outer `and`: keep the half that is the reduction
  obtain ⟨-, hall⟩ := IntOp.andi_eq_one.1 h
  -- the reduction over all three axes is 1: so is the conjunction at index i
  have hi := Host.reduce_andi_all _ _ _ _ _ hall i
  -- the conjunction at i: both comparisons are 1 there; each broadcast constant reads its scalar at i
  obtain ⟨hge, hlt⟩ := IntOp.andi_eq_one.1 hi
  exact toNat_lt_of_signed_range (a1 i) 512 (by decide) hge hlt

/-- THE PRECONDITION DECODED: if the printed predicate of the eight arguments is all ones, every word of the
    index argument is below 512 (unsigned). -/
theorem idx_lt_of_fn {F : FTy → Type} [FloatOps F] [Cert.Pre_finite_inputs.Facts]
    (a0 : FVec F Cert.Pre_finite_inputs.S8x512x768 .f32) (a1 : IVec Cert.Pre_finite_inputs.S8x6144x2 32)
    (a2 : FVec F Cert.Pre_finite_inputs.S768x768 .f32) (a3 : FVec F Cert.Pre_finite_inputs.S768 .f32)
    (a4 : FVec F Cert.Pre_finite_inputs.S768x768 .f32) (a5 : FVec F Cert.Pre_finite_inputs.S768 .f32)
    (a6 : FVec F Cert.Pre_finite_inputs.S1536x768 .f32) (a7 : FVec F Cert.Pre_finite_inputs.S768 .f32)
    (h : Cert.Pre_finite_inputs.fn (F := F) a0 a1 a2 a3 a4 a5 a6 a7 = fun _ => 1#1)
    (i : Cert.Pre_finite_inputs.S8x6144x2.Idx) : (a1 i).toNat < 512 := by
  have e := congrFun h ValueIdx.ix0
  -- the chain of the first two parts ends in the call of the last part on the index argument
  unfold Cert.Pre_finite_inputs.fn Cert.Pre_finite_inputs.fn_part1 at e
  exact idx_lt_of_part2 (F := F) a1 _ e i

/-- The same of the idealized kernel's launch memory: on every device, every word of its index argument is
    below 512. -/
theorem idx_lt [Cert.KernelIdeal.Facts] [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S8x6144x2.Idx) :
    (m ((c.tc : Thread Cert.KernelIdeal.nD Cert.KernelIdeal.τ).loc Cert.KernelIdeal.main_arg1) i).toNat < 512 :=
  idx_lt_of_fn (F := Ideal) _ _ _ _ _ _ _ _ (h c) i

end Cert.Span.PreDecode

end
-- ==== Proof.lean ====
/-
  The proof of `Cert.Claim`: a span-pair scorer in two pallas_calls against its jnp reference, over the extended reals.

  The kernel computes, per batch, the two per-token tables  ps = relu (h Ws + bs) · Wo_top  and  pe = relu (h We + be) · Wo_bot
  (first call), then per span picks row idx_s of ps and row idx_e of pe by one-hot matrix products and adds the bias
  (second call). The reference picks the rows of the two linear layers first, joins them, applies relu and ONE
  1536 × 768 product. A gather commutes with relu and with a row-wise product, and the joined sum splits into its two
  halves, so both are  ∑ f, relu (hid Ws bs [b, s, f]) · Wo[f, j] + ∑ f, relu (hid We be [b, e, f]) · Wo[768 + f, j] + bo[j]
  (`Cert.Span.result`, Proof/Spec.lean). The laws used (a sum split in two, 0 · x = 0, 1 · x = x) hold for every extended
  real, so the float inputs' finiteness is never opened; what is used of the precondition is that every index word
  lies in [0, 512): there the kernel's clamp and the reference's wrap-and-fill are both the identity.

  Frames: the two kernel programs' frames are the generated certificates; the reference's is its run with the result
  dropped. `preserves`: the ideal pass rewrote nothing. `algebraic`: the kernel's run with its result array named
  (Proof/KernelRun.lean), that array as the spec's function (Proof/KernelValue.lean over Region0Value, Region1Value, Glue),
  the reference's run and its term as the same function (Proof/RefRun.lean, Proof/RefRead.lean, Proof/RefValue.lean).
-/
import proofs.«422982_j26671746908734_3_alg».proof.Defs
import proofs.«422982_j26671746908734_3_alg».proof.Proof.Gen.Kernel
import proofs.«422982_j26671746908734_3_alg».proof.Proof.Gen.Kernel.Frame
import proofs.«422982_j26671746908734_3_alg».proof.Proof.Gen.KernelIdeal
import proofs.«422982_j26671746908734_3_alg».proof.Proof.Gen.KernelIdeal.Frame
import proofs.«422982_j26671746908734_3_alg».proof.Proof.Gen.ReferenceIdeal
import proofs.«422982_j26671746908734_3_alg».proof.Proof.Gen.Pre_finite_inputs
import proofs.«422982_j26671746908734_3_alg».proof.Proof.KernelRun
import proofs.«422982_j26671746908734_3_alg».proof.Proof.KernelValue
import proofs.«422982_j26671746908734_3_alg».proof.Proof.RefRun
import proofs.«422982_j26671746908734_3_alg».proof.Proof.RefRead
import proofs.«422982_j26671746908734_3_alg».proof.Proof.RefValue
import proofs.«422982_j26671746908734_3_alg».proof.Proof.PreDecode
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- At the extended reals both programs end with `Cert.Span.result` of the arguments, which agree. -/
theorem algebraic : Cert.algebraic_KernelIdeal_ReferenceIdeal := by
  intro m ρ m' ρ' hpre hagree
  have hidx : ∀ (c : Dev Cert.KernelIdeal.nD) (i : Cert.KernelIdeal.S8x6144x2.Idx),
      (m ((c.tc : Thread Cert.KernelIdeal.nD Cert.KernelIdeal.τ).loc Cert.KernelIdeal.main_arg1) i).toNat < 512 :=
    fun c i => Cert.Span.PreDecode.idx_lt m hpre c i
  refine ⟨fun c => Cert.Span.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.Span.Kernel.result_eq m ρ c (hidx c)), (h c).2⟩)
      (Cert.KernelIdeal.GenRun.run_main (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v22_eq]
    obtain ⟨e0, e1, e2, e3, e4, e5, e6, e7⟩ := hagree c
    rw [e0, e1, e2, e3, e4, e5, e6, e7]
    exact Cert.Span.Ref.ref_result _ _ _ _ _ _ _ _ (hidx c)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
